-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v54)) (v1 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_v56) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_v105) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x128 : Shape := ⟨2, ![20000, 128]⟩
abbrev S2x160000 : Shape := ⟨2, ![2, 160000]⟩
abbrev S128x1024 : Shape := ⟨2, ![128, 1024]⟩
abbrev S1024 : Shape := ⟨1, ![1024]⟩
abbrev S1024x512 : Shape := ⟨2, ![1024, 512]⟩
abbrev S512 : Shape := ⟨1, ![512]⟩
abbrev S512x8 : Shape := ⟨2, ![512, 8]⟩
abbrev S8 : Shape := ⟨1, ![8]⟩
abbrev S_ : Shape := ⟨0, ![]⟩

class Facts : Prop where
  bcast_S_S20000x128 : S_.BroadcastsInDim S20000x128 (![] : Fin 0 → Fin S20000x128.rank)
  reducesTo_S20000x128_S_d0_1 : S20000x128.ReducesTo [0, 1] S_
  h_S_ : 0 < S_.numel
  bcast_S_S128x1024 : S_.BroadcastsInDim S128x1024 (![] : Fin 0 → Fin S128x1024.rank)
  reducesTo_S128x1024_S_d0_1 : S128x1024.ReducesTo [0, 1] S_
  bcast_S_S1024 : S_.BroadcastsInDim S1024 (![] : Fin 0 → Fin S1024.rank)
  reducesTo_S1024_S_d0 : S1024.ReducesTo [0] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x8 : S_.BroadcastsInDim S512x8 (![] : Fin 0 → Fin S512x8.rank)
  reducesTo_S512x8_S_d0_1 : S512x8.ReducesTo [0, 1] S_
  bcast_S_S8 : S_.BroadcastsInDim S8 (![] : Fin 0 → Fin S8.rank)
  reducesTo_S8_S_d0 : S8.ReducesTo [0] S_

variable [Facts]

def fn_part3 {F : FTy → Type} [FloatOps F] (main_arg12 : FVec F S8 .f32) (main_arg13 : FVec F S512x8 .f32) (main_v48 : IVec S_ 1) (main_v49 : FVec F S512x8 .f32) (main_v50 : FVec F S512x8 .f32) : IVec S_ 1 :=
  let main_v51 : IVec S512x8 1 := cmpf .olt main_v49 main_v50
  let main_c_19 : IVec S_ 1 := constantI S_ 1 1#1
  let main_v52 : IVec S_ 1 := (fun x v => Host.reduce IntOp.andi x v reducesTo_S512x8_S_d0_1 h_S_) main_v51 main_c_19
  let main_v53 : IVec S_ 1 := andi main_v48 main_v52
  let main_v54 : FVec F S8 .f32 := Host.absf main_arg12
  let main_cst_20 : FVec F S_ .f32 := constant S_ .f32 0x7F800000#32
  let main_v55 : FVec F S8 .f32 := broadcastInDim S8 ![] bcast_S_S8 main_cst_20
  let main_v56 : IVec S8 1 := cmpf .olt main_v54 main_v55
  let main_c_21 : IVec S_ 1 := constantI S_ 1 1#1
  let main_v57 : IVec S_ 1 := (fun x v => Host.reduce IntOp.andi x v reducesTo_S8_S_d0 h_S_) main_v56 main_c_21
  let main_v58 : IVec S_ 1 := andi main_v53 main_v57
  let main_v59 : FVec F S512x8 .f32 := Host.absf main_arg13
  let main_cst_22 : FVec F S_ .f32 := constant S_ .f32 0x7F800000#32
  let main_v60 : FVec F S512x8 .f32 := broadcastInDim S512x8 ![] bcast_S_S512x8 main_cst_22
  let main_v61 : IVec S512x8 1 := cmpf .olt main_v59 main_v60
  let main_c_23 : IVec S_ 1 := constantI S_ 1 1#1
  let main_v62 : IVec S_ 1 := (fun x v => Host.reduce IntOp.andi x v reducesTo_S512x8_S_d0_1 h_S_) main_v61 main_c_23
  let main_v63 : IVec S_ 1 := andi main_v58 main_v62
  main_v63

def fn_part2 {F : FTy → Type} [FloatOps F] (main_arg8 : FVec F S512x8 .f32) (main_arg9 : FVec F S8 .f32) (main_arg10 : FVec F S512x8 .f32) (main_arg11 : FVec F S512x8 .f32) (main_arg12 : FVec F S8 .f32) (main_arg13 : FVec F S512x8 .f32) (main_v33 : IVec S_ 1) : IVec S_ 1 :=
  let main_v34 : FVec F S512x8 .f32 := Host.absf main_arg8
  let main_cst_12 : FVec F S_ .f32 := constant S_ .f32 0x7F800000#32
  let main_v35 : FVec F S512x8 .f32 := broadcastInDim S512x8 ![] bcast_S_S512x8 main_cst_12
  let main_v36 : IVec S512x8 1 := cmpf .olt main_v34 main_v35
  let main_c_13 : IVec S_ 1 := constantI S_ 1 1#1
  let main_v37 : IVec S_ 1 := (fun x v => Host.reduce IntOp.andi x v reducesTo_S512x8_S_d0_1 h_S_) main_v36 main_c_13
  let main_v38 : IVec S_ 1 := andi main_v33 main_v37
  let main_v39 : FVec F S8 .f32 := Host.absf main_arg9
  let main_cst_14 : FVec F S_ .f32 := constant S_ .f32 0x7F800000#32
  let main_v40 : FVec F S8 .f32 := broadcastInDim S8 ![] bcast_S_S8 main_cst_14
  let main_v41 : IVec S8 1 := cmpf .olt main_v39 main_v40
  let main_c_15 : IVec S_ 1 := constantI S_ 1 1#1
  let main_v42 : IVec S_ 1 := (fun x v => Host.reduce IntOp.andi x v reducesTo_S8_S_d0 h_S_) main_v41 main_c_15
  let main_v43 : IVec S_ 1 := andi main_v38 main_v42
  let main_v44 : FVec F S512x8 .f32 := Host.absf main_arg10
  let main_cst_16 : FVec F S_ .f32 := constant S_ .f32 0x7F800000#32
  let main_v45 : FVec F S512x8 .f32 := broadcastInDim S512x8 ![] bcast_S_S512x8 main_cst_16
  let main_v46 : IVec S512x8 1 := cmpf .olt main_v44 main_v45
  let main_c_17 : IVec S_ 1 := constantI S_ 1 1#1
  let main_v47 : IVec S_ 1 := (fun x v => Host.reduce IntOp.andi x v reducesTo_S512x8_S_d0_1 h_S_) main_v46 main_c_17
  let main_v48 : IVec S_ 1 := andi main_v43 main_v47
  let main_v49 : FVec F S512x8 .f32 := Host.absf main_arg11
  let main_cst_18 : FVec F S_ .f32 := constant S_ .f32 0x7F800000#32
  let main_v50 : FVec F S512x8 .f32 := broadcastInDim S512x8 ![] bcast_S_S512x8 main_cst_18
  fn_part3 (F := F) main_arg12 main_arg13 main_v48 main_v49 main_v50

def fn_part1 {F : FTy → Type} [FloatOps F] (main_arg5 : FVec F S1024x512 .f32) (main_arg6 : FVec F S512 .f32) (main_arg7 : FVec F S1024x512 .f32) (main_arg8 : FVec F S512x8 .f32) (main_arg9 : FVec F S8 .f32) (main_arg10 : FVec F S512x8 .f32) (main_arg11 : FVec F S512x8 .f32) (main_arg12 : FVec F S8 .f32) (main_arg13 : FVec F S512x8 .f32) (main_v13 : IVec S_ 1) (main_v16 : IVec S128x1024 1) : IVec S_ 1 :=
  let main_c_5 : IVec S_ 1 := constantI S_ 1 1#1
  let main_v17 : IVec S_ 1 := (fun x v => Host.reduce IntOp.andi x v reducesTo_S128x1024_S_d0_1 h_S_) main_v16 main_c_5
  let main_v18 : IVec S_ 1 := andi main_v13 main_v17
  let main_v19 : FVec F S1024x512 .f32 := Host.absf main_arg5
  let main_cst_6 : FVec F S_ .f32 := constant S_ .f32 0x7F800000#32
  let main_v20 : FVec F S1024x512 .f32 := broadcastInDim S1024x512 ![] bcast_S_S1024x512 main_cst_6
  let main_v21 : IVec S1024x512 1 := cmpf .olt main_v19 main_v20
  let main_c_7 : IVec S_ 1 := constantI S_ 1 1#1
  let main_v22 : IVec S_ 1 := (fun x v => Host.reduce IntOp.andi x v reducesTo_S1024x512_S_d0_1 h_S_) main_v21 main_c_7
  let main_v23 : IVec S_ 1 := andi main_v18 main_v22
  let main_v24 : FVec F S512 .f32 := Host.absf main_arg6
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S1024x512 .f32 := Host.absf main_arg7
  let main_cst_10 : FVec F S_ .f32 := constant S_ .f32 0x7F800000#32
  let main_v30 : FVec F S1024x512 .f32 := broadcastInDim S1024x512 ![] bcast_S_S1024x512 main_cst_10
  let main_v31 : IVec S1024x512 1 := cmpf .olt main_v29 main_v30
  let main_c_11 : IVec S_ 1 := constantI S_ 1 1#1
  let main_v32 : IVec S_ 1 := (fun x v => Host.reduce IntOp.andi x v reducesTo_S1024x512_S_d0_1 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S20000x128 .f32) (main_arg1 : IVec S2x160000 32) (main_arg2 : FVec F S128x1024 .f32) (main_arg3 : FVec F S1024 .f32) (main_arg4 : FVec F S128x1024 .f32) (main_arg5 : FVec F S1024x512 .f32) (main_arg6 : FVec F S512 .f32) (main_arg7 : FVec F S1024x512 .f32) (main_arg8 : FVec F S512x8 .f32) (main_arg9 : FVec F S8 .f32) (main_arg10 : FVec F S512x8 .f32) (main_arg11 : FVec F S512x8 .f32) (main_arg12 : FVec F S8 .f32) (main_arg13 : FVec F S512x8 .f32) : IVec S_ 1 :=
  let main_v0 : FVec F S20000x128 .f32 := Host.absf main_arg0
  let main_cst : FVec F S_ .f32 := constant S_ .f32 0x7F800000#32
  let main_v1 : FVec F S20000x128 .f32 := broadcastInDim S20000x128 ![] bcast_S_S20000x128 main_cst
  let main_v2 : IVec S20000x128 1 := cmpf .olt main_v0 main_v1
  let main_c : IVec S_ 1 := constantI S_ 1 1#1
  let main_v3 : IVec S_ 1 := (fun x v => Host.reduce IntOp.andi x v reducesTo_S20000x128_S_d0_1 h_S_) main_v2 main_c
  let main_v4 : FVec F S128x1024 .f32 := Host.absf main_arg2
  let main_cst_0 : FVec F S_ .f32 := constant S_ .f32 0x7F800000#32
  let main_v5 : FVec F S128x1024 .f32 := broadcastInDim S128x1024 ![] bcast_S_S128x1024 main_cst_0
  let main_v6 : IVec S128x1024 1 := cmpf .olt main_v4 main_v5
  let main_c_1 : IVec S_ 1 := constantI S_ 1 1#1
  let main_v7 : IVec S_ 1 := (fun x v => Host.reduce IntOp.andi x v reducesTo_S128x1024_S_d0_1 h_S_) main_v6 main_c_1
  let main_v8 : IVec S_ 1 := andi main_v3 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S128x1024 .f32 := Host.absf main_arg4
  let main_cst_4 : FVec F S_ .f32 := constant S_ .f32 0x7F800000#32
  let main_v15 : FVec F S128x1024 .f32 := broadcastInDim S128x1024 ![] bcast_S_S128x1024 main_cst_4
  let main_v16 : IVec S128x1024 1 := cmpf .olt main_v14 main_v15
  fn_part1 (F := F) main_arg5 main_arg6 main_arg7 main_arg8 main_arg9 main_arg10 main_arg11 main_arg12 main_arg13 main_v13 main_v16
-- ==== Kernel.lean ====
abbrev S20000x128 : Shape := ⟨2, ![20000, 128]⟩
abbrev S2x160000 : Shape := ⟨2, ![2, 160000]⟩
abbrev S128x1024 : Shape := ⟨2, ![128, 1024]⟩
abbrev S1024 : Shape := ⟨1, ![1024]⟩
abbrev S1024x512 : Shape := ⟨2, ![1024, 512]⟩
abbrev S512 : Shape := ⟨1, ![512]⟩
abbrev S512x8 : Shape := ⟨2, ![512, 8]⟩
abbrev S8 : Shape := ⟨1, ![8]⟩
abbrev S1x160000 : Shape := ⟨2, ![1, 160000]⟩
abbrev S160000 : Shape := ⟨1, ![160000]⟩
abbrev S_ : Shape := ⟨0, ![]⟩
abbrev S20000 : Shape := ⟨1, ![20000]⟩
abbrev S160000x1 : Shape := ⟨2, ![160000, 1]⟩
abbrev S20000x1 : Shape := ⟨2, ![20000, 1]⟩
abbrev S160000x128 : Shape := ⟨2, ![160000, 128]⟩
abbrev S1x1024 : Shape := ⟨2, ![1, 1024]⟩
abbrev S20000x1024 : Shape := ⟨2, ![20000, 1024]⟩
abbrev S1000x128 : Shape := ⟨2, ![1000, 128]⟩
abbrev S1000x1024 : Shape := ⟨2, ![1000, 1024]⟩
abbrev S160000x1024 : Shape := ⟨2, ![160000, 1024]⟩
abbrev S1x512 : Shape := ⟨2, ![1, 512]⟩
abbrev S20000x512 : Shape := ⟨2, ![20000, 512]⟩
abbrev S1000x512 : Shape := ⟨2, ![1000, 512]⟩
abbrev S160000x512 : Shape := ⟨2, ![160000, 512]⟩
abbrev S1x8 : Shape := ⟨2, ![1, 8]⟩
abbrev S20000x8 : Shape := ⟨2, ![20000, 8]⟩
abbrev S1000x8 : Shape := ⟨2, ![1000, 8]⟩

abbrev nBuf : Space → Nat
  | .hbm => 84
  | .vmem => 36
  | .smem => 0
  | _ => 0

abbrev bufTy : (tb : Table) → Fin (tcTables nBuf tb) → BufTy
  | .hbm, ⟨0, _⟩ => ⟨S20000x128, .f32⟩
  | .hbm, ⟨1, _⟩ => ⟨S2x160000, .i32⟩
  | .hbm, ⟨2, _⟩ => ⟨S128x1024, .f32⟩
  | .hbm, ⟨3, _⟩ => ⟨S1024, .f32⟩
  | .hbm, ⟨4, _⟩ => ⟨S128x1024, .f32⟩
  | .hbm, ⟨5, _⟩ => ⟨S1024x512, .f32⟩
  | .hbm, ⟨6, _⟩ => ⟨S512, .f32⟩
  | .hbm, ⟨7, _⟩ => ⟨S1024x512, .f32⟩
  | .hbm, ⟨8, _⟩ => ⟨S512x8, .f32⟩
  | .hbm, ⟨9, _⟩ => ⟨S8, .f32⟩
  | .hbm, ⟨10, _⟩ => ⟨S512x8, .f32⟩
  | .hbm, ⟨11, _⟩ => ⟨S512x8, .f32⟩
  | .hbm, ⟨12, _⟩ => ⟨S8, .f32⟩
  | .hbm, ⟨13, _⟩ => ⟨S512x8, .f32⟩
  | .hbm, ⟨14, _⟩ => ⟨S1x160000, .i32⟩
  | .hbm, ⟨15, _⟩ => ⟨S160000, .i32⟩
  | .hbm, ⟨16, _⟩ => ⟨S1x160000, .i32⟩
  | .hbm, ⟨17, _⟩ => ⟨S160000, .i32⟩
  | .hbm, ⟨18, _⟩ => ⟨S_, .f32⟩
  | .hbm, ⟨19, _⟩ => ⟨S160000, .f32⟩
  | .hbm, ⟨20, _⟩ => ⟨S_, .f32⟩
  | .hbm, ⟨21, _⟩ => ⟨S20000, .f32⟩
  | .hbm, ⟨22, _⟩ => ⟨S160000x1, .i32⟩
  | .hbm, ⟨23, _⟩ => ⟨S20000, .f32⟩
  | .hbm, ⟨24, _⟩ => ⟨S_, .f32⟩
  | .hbm, ⟨25, _⟩ => ⟨S20000, .f32⟩
  | .hbm, ⟨26, _⟩ => ⟨S20000, .f32⟩
  | .hbm, ⟨27, _⟩ => ⟨S_, .f32⟩
  | .hbm, ⟨28, _⟩ => ⟨S20000, .f32⟩
  | .hbm, ⟨29, _⟩ => ⟨S20000, .f32⟩
  | .hbm, ⟨30, _⟩ => ⟨S20000x1, .f32⟩
  | .hbm, ⟨31, _⟩ => ⟨S_, .i32⟩
  | .hbm, ⟨32, _⟩ => ⟨S160000, .i32⟩
  | .hbm, ⟨33, _⟩ => ⟨S160000, .i1⟩
  | .hbm, ⟨34, _⟩ => ⟨S_, .i32⟩
  | .hbm, ⟨35, _⟩ => ⟨S160000, .i32⟩
  | .hbm, ⟨36, _⟩ => ⟨S160000, .i32⟩
  | .hbm, ⟨37, _⟩ => ⟨S160000, .i32⟩
  | .hbm, ⟨38, _⟩ => ⟨S160000x1, .i32⟩
  | .hbm, ⟨39, _⟩ => ⟨S160000x128, .f32⟩
  | .hbm, ⟨40, _⟩ => ⟨S_, .f32⟩
  | .hbm, ⟨41, _⟩ => ⟨S20000x128, .f32⟩
  | .hbm, ⟨42, _⟩ => ⟨S160000x1, .i32⟩
  | .hbm, ⟨43, _⟩ => ⟨S20000x128, .f32⟩
  | .hbm, ⟨44, _⟩ => ⟨S20000x128, .f32⟩
  | .hbm, ⟨45, _⟩ => ⟨S20000x128, .f32⟩
  | .hbm, ⟨46, _⟩ => ⟨S1x1024, .f32⟩
  | .hbm, ⟨47, _⟩ => ⟨S20000x1024, .f32⟩
  | .hbm, ⟨48, _⟩ => ⟨S_, .i32⟩
  | .hbm, ⟨49, _⟩ => ⟨S160000, .i32⟩
  | .hbm, ⟨50, _⟩ => ⟨S160000, .i1⟩
  | .hbm, ⟨51, _⟩ => ⟨S_, .i32⟩
  | .hbm, ⟨52, _⟩ => ⟨S160000, .i32⟩
  | .hbm, ⟨53, _⟩ => ⟨S160000, .i32⟩
  | .hbm, ⟨54, _⟩ => ⟨S160000, .i32⟩
  | .hbm, ⟨55, _⟩ => ⟨S160000x1, .i32⟩
  | .hbm, ⟨56, _⟩ => ⟨S160000x1024, .f32⟩
  | .hbm, ⟨57, _⟩ => ⟨S_, .f32⟩
  | .hbm, ⟨58, _⟩ => ⟨S20000x1024, .f32⟩
  | .hbm, ⟨59, _⟩ => ⟨S160000x1, .i32⟩
  | .hbm, ⟨60, _⟩ => ⟨S20000x1024, .f32⟩
  | .hbm, ⟨61, _⟩ => ⟨S20000x1024, .f32⟩
  | .hbm, ⟨62, _⟩ => ⟨S20000x1024, .f32⟩
  | .hbm, ⟨63, _⟩ => ⟨S1x512, .f32⟩
  | .hbm, ⟨64, _⟩ => ⟨S20000x512, .f32⟩
  | .hbm, ⟨65, _⟩ => ⟨S_, .i32⟩
  | .hbm, ⟨66, _⟩ => ⟨S160000, .i32⟩
  | .hbm, ⟨67, _⟩ => ⟨S160000, .i1⟩
  | .hbm, ⟨68, _⟩ => ⟨S_, .i32⟩
  | .hbm, ⟨69, _⟩ => ⟨S160000, .i32⟩
  | .hbm, ⟨70, _⟩ => ⟨S160000, .i32⟩
  | .hbm, ⟨71, _⟩ => ⟨S160000, .i32⟩
  | .hbm, ⟨72, _⟩ => ⟨S160000x1, .i32⟩
  | .hbm, ⟨73, _⟩ => ⟨S160000x512, .f32⟩
  | .hbm, ⟨74, _⟩ => ⟨S_, .f32⟩
  | .hbm, ⟨75, _⟩ => ⟨S20000x512, .f32⟩
  | .hbm, ⟨76, _⟩ => ⟨S160000x1, .i32⟩
  | .hbm, ⟨77, _⟩ => ⟨S20000x512, .f32⟩
  | .hbm, ⟨78, _⟩ => ⟨S20000x512, .f32⟩
  | .hbm, ⟨79, _⟩ => ⟨S20000x512, .f32⟩
  | .hbm, ⟨80, _⟩ => ⟨S1x8, .f32⟩
  | .hbm, ⟨81, _⟩ => ⟨S20000x8, .f32⟩
  | .hbm, ⟨82, _⟩ => ⟨S1x8, .f32⟩
  | .hbm, ⟨83, _⟩ => ⟨S20000x8, .f32⟩
  | .local _ .vmem, ⟨0, _⟩ => ⟨S1000x128, .f32⟩
  | .local _ .vmem, ⟨1, _⟩ => ⟨S1000x128, .f32⟩
  | .local _ .vmem, ⟨2, _⟩ => ⟨S1000x128, .f32⟩
  | .local _ .vmem, ⟨3, _⟩ => ⟨S1000x128, .f32⟩
  | .local _ .vmem, ⟨4, _⟩ => ⟨S128x1024, .f32⟩
  | .local _ .vmem, ⟨5, _⟩ => ⟨S1x1024, .f32⟩
  | .local _ .vmem, ⟨6, _⟩ => ⟨S128x1024, .f32⟩
  | .local _ .vmem, ⟨7, _⟩ => ⟨S1000x1024, .f32⟩
  | .local _ .vmem, ⟨8, _⟩ => ⟨S1000x1024, .f32⟩
  | .local _ .vmem, ⟨9, _⟩ => ⟨S1000x1024, .f32⟩
  | .local _ .vmem, ⟨10, _⟩ => ⟨S1000x1024, .f32⟩
  | .local _ .vmem, ⟨11, _⟩ => ⟨S1000x1024, .f32⟩
  | .local _ .vmem, ⟨12, _⟩ => ⟨S1000x1024, .f32⟩
  | .local _ .vmem, ⟨13, _⟩ => ⟨S1024x512, .f32⟩
  | .local _ .vmem, ⟨14, _⟩ => ⟨S1x512, .f32⟩
  | .local _ .vmem, ⟨15, _⟩ => ⟨S1024x512, .f32⟩
  | .local _ .vmem, ⟨16, _⟩ => ⟨S1000x512, .f32⟩
  | .local _ .vmem, ⟨17, _⟩ => ⟨S1000x512, .f32⟩
  | .local _ .vmem, ⟨18, _⟩ => ⟨S1000x512, .f32⟩
  | .local _ .vmem, ⟨19, _⟩ => ⟨S1000x512, .f32⟩
  | .local _ .vmem, ⟨20, _⟩ => ⟨S1000x512, .f32⟩
  | .local _ .vmem, ⟨21, _⟩ => ⟨S1000x512, .f32⟩
  | .local _ .vmem, ⟨22, _⟩ => ⟨S512x8, .f32⟩
  | .local _ .vmem, ⟨23, _⟩ => ⟨S1x8, .f32⟩
  | .local _ .vmem, ⟨24, _⟩ => ⟨S512x8, .f32⟩
  | .local _ .vmem, ⟨25, _⟩ => ⟨S1000x8, .f32⟩
  | .local _ .vmem, ⟨26, _⟩ => ⟨S1000x8, .f32⟩
  | .local _ .vmem, ⟨27, _⟩ => ⟨S1000x512, .f32⟩
  | .local _ .vmem, ⟨28, _⟩ => ⟨S1000x512, .f32⟩
  | .local _ .vmem, ⟨29, _⟩ => ⟨S1000x512, .f32⟩
  | .local _ .vmem, ⟨30, _⟩ => ⟨S1000x512, .f32⟩
  | .local _ .vmem, ⟨31, _⟩ => ⟨S512x8, .f32⟩
  | .local _ .vmem, ⟨32, _⟩ => ⟨S1x8, .f32⟩
  | .local _ .vmem, ⟨33, _⟩ => ⟨S512x8, .f32⟩
  | .local _ .vmem, ⟨34, _⟩ => ⟨S1000x8, .f32⟩
  | .local _ .vmem, ⟨35, _⟩ => ⟨S1000x8, .f32⟩
  | _, _ => ⟨S20000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_cst_2 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_c : Ref sig .tc := ⟨.hbm, 31, rfl⟩
abbrev main_v13 : Ref sig .tc := ⟨.hbm, 32, rfl⟩
abbrev main_v14 : Ref sig .tc := ⟨.hbm, 33, rfl⟩
abbrev main_c_3 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_4 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c_5 : Ref sig .tc := ⟨.hbm, 48, rfl⟩
abbrev main_v27 : Ref sig .tc := ⟨.hbm, 49, rfl⟩
abbrev main_v28 : Ref sig .tc := ⟨.hbm, 50, rfl⟩
abbrev main_c_6 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_7 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_c_8 : Ref sig .tc := ⟨.hbm, 65, rfl⟩
abbrev main_v41 : Ref sig .tc := ⟨.hbm, 66, rfl⟩
abbrev main_v42 : Ref sig .tc := ⟨.hbm, 67, rfl⟩
abbrev main_c_9 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_10 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1000x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1024x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1024x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1000x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S512x8 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x8 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S512x8 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1000x8 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1000x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S512x8 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x8 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S512x8 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S1000x8 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S160000 : S_.BroadcastsInDim S160000 (![] : Fin 0 → Fin S160000.rank)
  bcast_S_S20000 : S_.BroadcastsInDim S20000 (![] : Fin 0 → Fin S20000.rank)
  bcast_S160000_S160000x1_0 : S160000.BroadcastsInDim S160000x1 (![0] : Fin 1 → Fin S160000x1.rank)
  bcast_S20000_S20000x1_0 : S20000.BroadcastsInDim S20000x1 (![0] : Fin 1 → Fin S20000x1.rank)
  bcast_S_S20000x128 : S_.BroadcastsInDim S20000x128 (![] : Fin 0 → Fin S20000x128.rank)
  bcast_S20000x1_S20000x128_0_1 : S20000x1.BroadcastsInDim S20000x128 (![0, 1] : Fin 2 → Fin S20000x128.rank)
  shapeCasts_S1024_S1x1024 : S1024.ShapeCasts S1x1024
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  bitsLt_bf16_f32 : FTy.bits .bf16 < FTy.bits .f32
  inb_S128x1024_S128x1024_0_0 : ∀ a, (![0, 0] : Fin 2 → Nat) a + S128x1024.size a ≤ S128x1024.size a
  h_S128x1024 : 0 < S128x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1000x1024 : S1x1024.Broadcasts S1000x1024
  inb_S1000x1024_S1000x1024_0_0 : ∀ a, (![0, 0] : Fin 2 → Nat) a + S1000x1024.size a ≤ S1000x1024.size a
  h_S1000x1024 : 0 < S1000x1024.numel
  bcast_S_S20000x1024 : S_.BroadcastsInDim S20000x1024 (![] : Fin 0 → Fin S20000x1024.rank)
  bcast_S20000x1_S20000x1024_0_1 : S20000x1.BroadcastsInDim S20000x1024 (![0, 1] : Fin 2 → Fin S20000x1024.rank)
  shapeCasts_S512_S1x512 : S512.ShapeCasts S1x512
  shapeCasts_S1000x1024_S1000x1024 : S1000x1024.ShapeCasts S1000x1024
  inb_S1024x512_S1024x512_0_0 : ∀ a, (![0, 0] : Fin 2 → Nat) a + S1024x512.size a ≤ S1024x512.size a
  h_S1024x512 : 0 < S1024x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1000x512 : S1x512.Broadcasts S1000x512
  inb_S1000x512_S1000x512_0_0 : ∀ a, (![0, 0] : Fin 2 → Nat) a + S1000x512.size a ≤ S1000x512.size a
  h_S1000x512 : 0 < S1000x512.numel
  bcast_S_S20000x512 : S_.BroadcastsInDim S20000x512 (![] : Fin 0 → Fin S20000x512.rank)
  bcast_S20000x1_S20000x512_0_1 : S20000x1.BroadcastsInDim S20000x512 (![0, 1] : Fin 2 → Fin S20000x512.rank)
  shapeCasts_S8_S1x8 : S8.ShapeCasts S1x8
  shapeCasts_S1000x512_S1000x512 : S1000x512.ShapeCasts S1000x512
  inb_S512x8_S512x8_0_0 : ∀ a, (![0, 0] : Fin 2 → Nat) a + S512x8.size a ≤ S512x8.size a
  h_S512x8 : 0 < S512x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S1000x8 : S1x8.Broadcasts S1000x8
  inb_S1000x8_S1000x8_0_0 : ∀ a, (![0, 0] : Fin 2 → Nat) a + S1000x8.size a ≤ S1000x8.size a
  h_S1000x8 : 0 < S1000x8.numel
  scatter_S20000_S160000x1_S160000_n_0_0_1_wf : ScatterDims.WF S20000 S160000x1 S160000 [] [0] [0] 1
  gather_S20000x128_S160000x1_S160000x128_1_0_n_n_0_1_1128_wf : GatherDims.WF S20000x128 S160000x1 S160000x128 [1] [0] [] [0] [] 1 ![1, 128]
  scatter_S20000x128_S160000x1_S160000x128_1_0_0_1_wf : ScatterDims.WF S20000x128 S160000x1 S160000x128 [1] [0] [0] 1
  dot_S1000x128_S128x1024_S1000x1024_1_0_0_1_n_n_wf : DotDims.WF S1000x128 S128x1024 S1000x1024 [1] [0] [0] [1] [] []
  gather_S20000x1024_S160000x1_S160000x1024_1_0_n_n_0_1_11024_wf : GatherDims.WF S20000x1024 S160000x1 S160000x1024 [1] [0] [] [0] [] 1 ![1, 1024]
  scatter_S20000x1024_S160000x1_S160000x1024_1_0_0_1_wf : ScatterDims.WF S20000x1024 S160000x1 S160000x1024 [1] [0] [0] 1
  dot_S1000x1024_S1024x512_S1000x512_1_0_0_1_n_n_wf : DotDims.WF S1000x1024 S1024x512 S1000x512 [1] [0] [0] [1] [] []
  gather_S20000x512_S160000x1_S160000x512_1_0_n_n_0_1_1512_wf : GatherDims.WF S20000x512 S160000x1 S160000x512 [1] [0] [] [0] [] 1 ![1, 512]
  scatter_S20000x512_S160000x1_S160000x512_1_0_0_1_wf : ScatterDims.WF S20000x512 S160000x1 S160000x512 [1] [0] [0] 1
  dot_S1000x512_S512x8_S1000x8_1_0_0_1_n_n_wf : DotDims.WF S1000x512 S512x8 S1000x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S20000x128.size a
  hwx0_0 : ∀ i : grid0.Coords, EltTy.bits .f32 = 32 ∨ (Rect.block (s := S20000x128) S1000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x128.size a ≤ S20000x128.size a
  hwx0_1 : ∀ i : grid0.Coords, EltTy.bits .f32 = 32 ∨ (Rect.block (s := S20000x128) S1000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S128x1024.size a
  hwx0_2 : ∀ i : grid0.Coords, EltTy.bits .f32 = 32 ∨ (Rect.block (s := S128x1024) S128x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x1024.size a ≤ S128x1024.size a
  hwx0_4 : ∀ i : grid0.Coords, EltTy.bits .f32 = 32 ∨ (Rect.block (s := S128x1024) S128x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1000x1024.size a ≤ S20000x1024.size a
  hwx0_5 : ∀ i : grid0.Coords, EltTy.bits .f32 = 32 ∨ (Rect.block (s := S20000x1024) S1000x1024.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x1024.size a ≤ S20000x1024.size a
  hwx1_0 : ∀ i : grid1.Coords, EltTy.bits .f32 = 32 ∨ (Rect.block (s := S20000x1024) S1000x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x1024.size a ≤ S20000x1024.size a
  hwx1_1 : ∀ i : grid1.Coords, EltTy.bits .f32 = 32 ∨ (Rect.block (s := S20000x1024) S1000x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024x512.size a ≤ S1024x512.size a
  hwx1_2 : ∀ i : grid1.Coords, EltTy.bits .f32 = 32 ∨ (Rect.block (s := S1024x512) S1024x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024x512.size a ≤ S1024x512.size a
  hwx1_4 : ∀ i : grid1.Coords, EltTy.bits .f32 = 32 ∨ (Rect.block (s := S1024x512) S1024x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1000x512.size a ≤ S20000x512.size a
  hwx1_5 : ∀ i : grid1.Coords, EltTy.bits .f32 = 32 ∨ (Rect.block (s := S20000x512) S1000x512.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x512.size a ≤ S20000x512.size a
  hwx2_0 : ∀ i : grid2.Coords, EltTy.bits .f32 = 32 ∨ (Rect.block (s := S20000x512) S1000x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x512.size a ≤ S20000x512.size a
  hwx2_1 : ∀ i : grid2.Coords, EltTy.bits .f32 = 32 ∨ (Rect.block (s := S20000x512) S1000x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S512x8.size a ≤ S512x8.size a
  hwx2_2 : ∀ i : grid2.Coords, EltTy.bits .f32 = 32 ∨ (Rect.block (s := S512x8) S512x8.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x8.size a ≤ S1x8.size a
  hwx2_3 : ∀ i : grid2.Coords, EltTy.bits .f32 = 32 ∨ (Rect.block (s := S1x8) S1x8.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S512x8.size a ≤ S512x8.size a
  hwx2_4 : ∀ i : grid2.Coords, EltTy.bits .f32 = 32 ∨ (Rect.block (s := S512x8) S512x8.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1000x8.size a ≤ S20000x8.size a
  hwx2_5 : ∀ i : grid2.Coords, EltTy.bits .f32 = 32 ∨ (Rect.block (s := S20000x8) S1000x8.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x512.size a ≤ S20000x512.size a
  hwx3_0 : ∀ i : grid3.Coords, EltTy.bits .f32 = 32 ∨ (Rect.block (s := S20000x512) S1000x512.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1000x512.size a ≤ S20000x512.size a
  hwx3_1 : ∀ i : grid3.Coords, EltTy.bits .f32 = 32 ∨ (Rect.block (s := S20000x512) S1000x512.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S512x8.size a ≤ S512x8.size a
  hwx3_2 : ∀ i : grid3.Coords, EltTy.bits .f32 = 32 ∨ (Rect.block (s := S512x8) S512x8.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x8.size a ≤ S1x8.size a
  hwx3_3 : ∀ i : grid3.Coords, EltTy.bits .f32 = 32 ∨ (Rect.block (s := S1x8) S1x8.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S512x8.size a ≤ S512x8.size a
  hwx3_4 : ∀ i : grid3.Coords, EltTy.bits .f32 = 32 ∨ (Rect.block (s := S512x8) S512x8.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1000x8.size a ≤ S20000x8.size a
  hwx3_5 : ∀ i : grid3.Coords, EltTy.bits .f32 = 32 ∨ (Rect.block (s := S20000x8) S1000x8.size (cc3_transform_5 i) (hinb3_5 i)).WholeWords (EltTy.packing .f32)

variable [Facts₀]

def scatter_S20000_S160000x1_S160000_n_0_0_1 : ScatterDims S20000 S160000x1 S160000 where
  updateWindowDims := []
  insertedWindowDims := [0]
  scatterDimsToOperandDims := [0]
  indexVectorDim := 1
  wf := scatter_S20000_S160000x1_S160000_n_0_0_1_wf
def gather_S20000x128_S160000x1_S160000x128_1_0_n_n_0_1_1128 : GatherDims S20000x128 S160000x1 S160000x128 where
  offsetDims := [1]
  collapsedSliceDims := [0]
  operandBatchingDims := []
  startIndicesBatchingDims := []
  startIndexMap := [0]
  indexVectorDim := 1
  sliceSizes := ![1, 128]
  wf := gather_S20000x128_S160000x1_S160000x128_1_0_n_n_0_1_1128_wf
def scatter_S20000x128_S160000x1_S160000x128_1_0_0_1 : ScatterDims S20000x128 S160000x1 S160000x128 where
  updateWindowDims := [1]
  insertedWindowDims := [0]
  scatterDimsToOperandDims := [0]
  indexVectorDim := 1
  wf := scatter_S20000x128_S160000x1_S160000x128_1_0_0_1_wf
def dot_S1000x128_S128x1024_S1000x1024_1_0_0_1_n_n : DotDims S1000x128 S128x1024 S1000x1024 where
  lhsContracting := [1]
  rhsContracting := [0]
  lhsNonContracting := [0]
  rhsNonContracting := [1]
  lhsBatch := []
  rhsBatch := []
  wf := dot_S1000x128_S128x1024_S1000x1024_1_0_0_1_n_n_wf
def gather_S20000x1024_S160000x1_S160000x1024_1_0_n_n_0_1_11024 : GatherDims S20000x1024 S160000x1 S160000x1024 where
  offsetDims := [1]
  collapsedSliceDims := [0]
  operandBatchingDims := []
  startIndicesBatchingDims := []
  startIndexMap := [0]
  indexVectorDim := 1
  sliceSizes := ![1, 1024]
  wf := gather_S20000x1024_S160000x1_S160000x1024_1_0_n_n_0_1_11024_wf
def scatter_S20000x1024_S160000x1_S160000x1024_1_0_0_1 : ScatterDims S20000x1024 S160000x1 S160000x1024 where
  updateWindowDims := [1]
  insertedWindowDims := [0]
  scatterDimsToOperandDims := [0]
  indexVectorDim := 1
  wf := scatter_S20000x1024_S160000x1_S160000x1024_1_0_0_1_wf
def dot_S1000x1024_S1024x512_S1000x512_1_0_0_1_n_n : DotDims S1000x1024 S1024x512 S1000x512 where
  lhsContracting := [1]
  rhsContracting := [0]
  lhsNonContracting := [0]
  rhsNonContracting := [1]
  lhsBatch := []
  rhsBatch := []
  wf := dot_S1000x1024_S1024x512_S1000x512_1_0_0_1_n_n_wf
def gather_S20000x512_S160000x1_S160000x512_1_0_n_n_0_1_1512 : GatherDims S20000x512 S160000x1 S160000x512 where
  offsetDims := [1]
  collapsedSliceDims := [0]
  operandBatchingDims := []
  startIndicesBatchingDims := []
  startIndexMap := [0]
  indexVectorDim := 1
  sliceSizes := ![1, 512]
  wf := gather_S20000x512_S160000x1_S160000x512_1_0_n_n_0_1_1512_wf
def scatter_S20000x512_S160000x1_S160000x512_1_0_0_1 : ScatterDims S20000x512 S160000x1 S160000x512 where
  updateWindowDims := [1]
  insertedWindowDims := [0]
  scatterDimsToOperandDims := [0]
  indexVectorDim := 1
  wf := scatter_S20000x512_S160000x1_S160000x512_1_0_0_1_wf
def dot_S1000x512_S512x8_S1000x8_1_0_0_1_n_n : DotDims S1000x512 S512x8 S1000x8 where
  lhsContracting := [1]
  rhsContracting := [0]
  lhsNonContracting := [0]
  rhsNonContracting := [1]
  lhsBatch := []
  rhsBatch := []
  wf := dot_S1000x512_S512x8_S1000x8_1_0_0_1_n_n_wf

abbrev win0_0 : Pipeline.Window sig grid0 :=
  Pipeline.Window.ofSpec (Memref.whole main_v24) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S1000x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S1000x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S1000x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S1024x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S1024x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S1000x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v52) S1000x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S1000x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S512x8.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v53) S1x8.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S512x8.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v54) S1000x8.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v52) S1000x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v40) S1000x512.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg11) S512x8.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v55) S1x8.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg13) S512x8.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v56) S1000x8.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S20000x128 : Shape := ⟨2, ![20000, 128]⟩
abbrev S2x160000 : Shape := ⟨2, ![2, 160000]⟩
abbrev S128x1024 : Shape := ⟨2, ![128, 1024]⟩
abbrev S1024 : Shape := ⟨1, ![1024]⟩
abbrev S1024x512 : Shape := ⟨2, ![1024, 512]⟩
abbrev S512 : Shape := ⟨1, ![512]⟩
abbrev S512x8 : Shape := ⟨2, ![512, 8]⟩
abbrev S8 : Shape := ⟨1, ![8]⟩
abbrev S1x160000 : Shape := ⟨2, ![1, 160000]⟩
abbrev S160000 : Shape := ⟨1, ![160000]⟩
abbrev S_ : Shape := ⟨0, ![]⟩
abbrev S160000x1 : Shape := ⟨2, ![160000, 1]⟩
abbrev S160000x128 : Shape := ⟨2, ![160000, 128]⟩
abbrev S20000 : Shape := ⟨1, ![20000]⟩
abbrev S20000x1 : Shape := ⟨2, ![20000, 1]⟩
abbrev S20000x1024 : Shape := ⟨2, ![20000, 1024]⟩
abbrev S1x1024 : Shape := ⟨2, ![1, 1024]⟩
abbrev S160000x1024 : Shape := ⟨2, ![160000, 1024]⟩
abbrev S20000x512 : Shape := ⟨2, ![20000, 512]⟩
abbrev S1x512 : Shape := ⟨2, ![1, 512]⟩
abbrev S160000x512 : Shape := ⟨2, ![160000, 512]⟩
abbrev S20000x8 : Shape := ⟨2, ![20000, 8]⟩
abbrev S1x8 : Shape := ⟨2, ![1, 8]⟩

abbrev nBuf : Space → Nat
  | .hbm => 148
  | .vmem => 0
  | .smem => 0
  | _ => 0

abbrev hbmTy0_0 (i : Nat) : BufTy := match i % 128 with
  | 0 => ⟨S20000x128, .f32⟩
  | 1 => ⟨S2x160000, .i32⟩
  | 2 => ⟨S128x1024, .f32⟩
  | 3 => ⟨S1024, .f32⟩
  | 4 => ⟨S128x1024, .f32⟩
  | 5 => ⟨S1024x512, .f32⟩
  | 6 => ⟨S512, .f32⟩
  | 7 => ⟨S1024x512, .f32⟩
  | 8 => ⟨S512x8, .f32⟩
  | 9 => ⟨S8, .f32⟩
  | 10 => ⟨S512x8, .f32⟩
  | 11 => ⟨S512x8, .f32⟩
  | 12 => ⟨S8, .f32⟩
  | 13 => ⟨S512x8, .f32⟩
  | 14 => ⟨S1x160000, .i32⟩
  | 15 => ⟨S160000, .i32⟩
  | 16 => ⟨S1x160000, .i32⟩
  | 17 => ⟨S160000, .i32⟩
  | 18 => ⟨S_, .i32⟩
  | 19 => ⟨S160000, .i32⟩
  | 20 => ⟨S160000, .i1⟩
  | 21 => ⟨S_, .i32⟩
  | 22 => ⟨S160000, .i32⟩
  | 23 => ⟨S160000, .i32⟩
  | 24 => ⟨S160000, .i32⟩
  | 25 => ⟨S160000x1, .i32⟩
  | 26 => ⟨S160000x128, .f32⟩
  | 27 => ⟨S_, .f32⟩
  | 28 => ⟨S20000x128, .f32⟩
  | 29 => ⟨S160000x1, .i32⟩
  | 30 => ⟨S20000x128, .f32⟩
  | 31 => ⟨S_, .f32⟩
  | 32 => ⟨S160000, .f32⟩
  | 33 => ⟨S_, .f32⟩
  | 34 => ⟨S20000, .f32⟩
  | 35 => ⟨S160000x1, .i32⟩
  | 36 => ⟨S20000, .f32⟩
  | 37 => ⟨S_, .f32⟩
  | 38 => ⟨S20000, .f32⟩
  | 39 => ⟨S20000, .f32⟩
  | 40 => ⟨S20000x1, .f32⟩
  | 41 => ⟨S20000x128, .f32⟩
  | 42 => ⟨S20000x128, .f32⟩
  | 43 => ⟨S20000x1024, .f32⟩
  | 44 => ⟨S1x1024, .f32⟩
  | 45 => ⟨S20000x1024, .f32⟩
  | 46 => ⟨S20000x1024, .f32⟩
  | 47 => ⟨S20000x1024, .f32⟩
  | 48 => ⟨S20000x1024, .f32⟩
  | 49 => ⟨S_, .f32⟩
  | 50 => ⟨S20000x1024, .f32⟩
  | 51 => ⟨S20000x1024, .f32⟩
  | 52 => ⟨S_, .i32⟩
  | 53 => ⟨S160000, .i32⟩
  | 54 => ⟨S160000, .i1⟩
  | 55 => ⟨S_, .i32⟩
  | 56 => ⟨S160000, .i32⟩
  | 57 => ⟨S160000, .i32⟩
  | 58 => ⟨S160000, .i32⟩
  | 59 => ⟨S160000x1, .i32⟩
  | 60 => ⟨S160000x1024, .f32⟩
  | 61 => ⟨S_, .f32⟩
  | 62 => ⟨S20000x1024, .f32⟩
  | 63 => ⟨S160000x1, .i32⟩
  | 64 => ⟨S20000x1024, .f32⟩
  | 65 => ⟨S_, .f32⟩
  | 66 => ⟨S160000, .f32⟩
  | 67 => ⟨S_, .f32⟩
  | 68 => ⟨S20000, .f32⟩
  | 69 => ⟨S160000x1, .i32⟩
  | 70 => ⟨S20000, .f32⟩
  | 71 => ⟨S_, .f32⟩
  | 72 => ⟨S20000, .f32⟩
  | 73 => ⟨S20000, .f32⟩
  | 74 => ⟨S20000x1, .f32⟩
  | 75 => ⟨S20000x1024, .f32⟩
  | 76 => ⟨S20000x1024, .f32⟩
  | 77 => ⟨S20000x512, .f32⟩
  | 78 => ⟨S1x512, .f32⟩
  | 79 => ⟨S20000x512, .f32⟩
  | 80 => ⟨S20000x512, .f32⟩
  | 81 => ⟨S20000x512, .f32⟩
  | 82 => ⟨S20000x512, .f32⟩
  | 83 => ⟨S_, .f32⟩
  | 84 => ⟨S20000x512, .f32⟩
  | 85 => ⟨S20000x512, .f32⟩
  | 86 => ⟨S_, .i32⟩
  | 87 => ⟨S160000, .i32⟩
  | 88 => ⟨S160000, .i1⟩
  | 89 => ⟨S_, .i32⟩
  | 90 => ⟨S160000, .i32⟩
  | 91 => ⟨S160000, .i32⟩
  | 92 => ⟨S160000, .i32⟩
  | 93 => ⟨S160000x1, .i32⟩
  | 94 => ⟨S160000x512, .f32⟩
  | 95 => ⟨S_, .f32⟩
  | 96 => ⟨S20000x512, .f32⟩
  | 97 => ⟨S160000x1, .i32⟩
  | 98 => ⟨S20000x512, .f32⟩
  | 99 => ⟨S_, .f32⟩
  | 100 => ⟨S160000, .f32⟩
  | 101 => ⟨S_, .f32⟩
  | 102 => ⟨S20000, .f32⟩
  | 103 => ⟨S160000x1, .i32⟩
  | 104 => ⟨S20000, .f32⟩
  | 105 => ⟨S_, .f32⟩
  | 106 => ⟨S20000, .f32⟩
  | 107 => ⟨S20000, .f32⟩
  | 108 => ⟨S20000x1, .f32⟩
  | 109 => ⟨S20000x512, .f32⟩
  | 110 => ⟨S20000x512, .f32⟩
  | 111 => ⟨S20000x8, .f32⟩
  | 112 => ⟨S1x8, .f32⟩
  | 113 => ⟨S20000x8, .f32⟩
  | 114 => ⟨S20000x8, .f32⟩
  | 115 => ⟨S20000x8, .f32⟩
  | 116 => ⟨S20000x8, .f32⟩
  | 117 => ⟨S_, .i32⟩
  | 118 => ⟨S160000, .i32⟩
  | 119 => ⟨S160000, .i1⟩
  | 120 => ⟨S_, .i32⟩
  | 121 => ⟨S160000, .i32⟩
  | 122 => ⟨S160000, .i32⟩
  | 123 => ⟨S160000, .i32⟩
  | 124 => ⟨S160000x1, .i32⟩
  | 125 => ⟨S160000x512, .f32⟩
  | 126 => ⟨S_, .f32⟩
  | 127 => ⟨S20000x512, .f32⟩
  | _ => ⟨S20000x128, .f32⟩

abbrev hbmTy0_1 (i : Nat) : BufTy := match i % 128 with
  | 0 => ⟨S160000x1, .i32⟩
  | 1 => ⟨S20000x512, .f32⟩
  | 2 => ⟨S_, .f32⟩
  | 3 => ⟨S160000, .f32⟩
  | 4 => ⟨S_, .f32⟩
  | 5 => ⟨S20000, .f32⟩
  | 6 => ⟨S160000x1, .i32⟩
  | 7 => ⟨S20000, .f32⟩
  | 8 => ⟨S_, .f32⟩
  | 9 => ⟨S20000, .f32⟩
  | 10 => ⟨S20000, .f32⟩
  | 11 => ⟨S20000x1, .f32⟩
  | 12 => ⟨S20000x512, .f32⟩
  | 13 => ⟨S20000x512, .f32⟩
  | 14 => ⟨S20000x8, .f32⟩
  | 15 => ⟨S1x8, .f32⟩
  | 16 => ⟨S20000x8, .f32⟩
  | 17 => ⟨S20000x8, .f32⟩
  | 18 => ⟨S20000x8, .f32⟩
  | 19 => ⟨S20000x8, .f32⟩
  | _ => ⟨S20000x128, .f32⟩

abbrev hbmTy (i : Nat) : BufTy := match i / 128 with
  | 0 => hbmTy0_0 i
  | 1 => hbmTy0_1 i
  | _ => ⟨S20000x128, .f32⟩

abbrev bufTy : (tb : Table) → Fin (tcTables nBuf tb) → BufTy
  | .hbm, ⟨i, _⟩ => hbmTy i
  | _, _ => ⟨S20000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_cst_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_call0_cst : Ref sig .tc := ⟨.hbm, 49, rfl⟩
abbrev main_call0_v0 : Ref sig .tc := ⟨.hbm, 50, rfl⟩
abbrev main_v29 : Ref sig .tc := ⟨.hbm, 51, rfl⟩
abbrev main_c_4 : Ref sig .tc := ⟨.hbm, 52, rfl⟩
abbrev main_v30 : Ref sig .tc := ⟨.hbm, 53, rfl⟩
abbrev main_v31 : Ref sig .tc := ⟨.hbm, 54, rfl⟩
abbrev main_c_5 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_6 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_7 : Ref sig .tc := ⟨.hbm, 65, rfl⟩
abbrev main_v40 : Ref sig .tc := ⟨.hbm, 66, rfl⟩
abbrev main_cst_8 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_9 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_call1_cst : Ref sig .tc := ⟨.hbm, 83, rfl⟩
abbrev main_call1_v0 : Ref sig .tc := ⟨.hbm, 84, rfl⟩
abbrev main_v55 : Ref sig .tc := ⟨.hbm, 85, rfl⟩
abbrev main_c_10 : Ref sig .tc := ⟨.hbm, 86, rfl⟩
abbrev main_v56 : Ref sig .tc := ⟨.hbm, 87, rfl⟩
abbrev main_v57 : Ref sig .tc := ⟨.hbm, 88, rfl⟩
abbrev main_c_11 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_12 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_13 : Ref sig .tc := ⟨.hbm, 99, rfl⟩
abbrev main_v66 : Ref sig .tc := ⟨.hbm, 100, rfl⟩
abbrev main_cst_14 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_cst_15 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_c_16 : Ref sig .tc := ⟨.hbm, 117, rfl⟩
abbrev main_v81 : Ref sig .tc := ⟨.hbm, 118, rfl⟩
abbrev main_v82 : Ref sig .tc := ⟨.hbm, 119, rfl⟩
abbrev main_c_17 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_cst_18 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_cst_19 : Ref sig .tc := ⟨.hbm, 130, rfl⟩
abbrev main_v91 : Ref sig .tc := ⟨.hbm, 131, rfl⟩
abbrev main_cst_20 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_cst_21 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩

abbrev nD : Nat := 1
abbrev τ : Topo := Topo.v7x

variable {F : FTy → Type} [FloatOps F]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S160000 : S_.BroadcastsInDim S160000 (![] : Fin 0 → Fin S160000.rank)
  bcast_S160000_S160000x1_0 : S160000.BroadcastsInDim S160000x1 (![0] : Fin 1 → Fin S160000x1.rank)
  bcast_S_S20000x128 : S_.BroadcastsInDim S20000x128 (![] : Fin 0 → Fin S20000x128.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x128_0_1 : S20000x1.BroadcastsInDim S20000x128 (![0, 1] : Fin 2 → Fin S20000x128.rank)
  bcast_S1024_S1x1024_1 : S1024.BroadcastsInDim S1x1024 (![1] : Fin 1 → Fin S1x1024.rank)
  bcast_S1x1024_S20000x1024_0_1 : S1x1024.BroadcastsInDim S20000x1024 (![0, 1] : Fin 2 → Fin S20000x1024.rank)
  bcast_S_S20000x1024 : S_.BroadcastsInDim S20000x1024 (![] : Fin 0 → Fin S20000x1024.rank)
  bcast_S20000x1_S20000x1024_0_1 : S20000x1.BroadcastsInDim S20000x1024 (![0, 1] : Fin 2 → Fin S20000x1024.rank)
  bcast_S512_S1x512_1 : S512.BroadcastsInDim S1x512 (![1] : Fin 1 → Fin S1x512.rank)
  bcast_S1x512_S20000x512_0_1 : S1x512.BroadcastsInDim S20000x512 (![0, 1] : Fin 2 → Fin S20000x512.rank)
  bcast_S_S20000x512 : S_.BroadcastsInDim S20000x512 (![] : Fin 0 → Fin S20000x512.rank)
  bcast_S20000x1_S20000x512_0_1 : S20000x1.BroadcastsInDim S20000x512 (![0, 1] : Fin 2 → Fin S20000x512.rank)
  bcast_S8_S1x8_1 : S8.BroadcastsInDim S1x8 (![1] : Fin 1 → Fin S1x8.rank)
  bcast_S1x8_S20000x8_0_1 : S1x8.BroadcastsInDim S20000x8 (![0, 1] : Fin 2 → Fin S20000x8.rank)
  gather_S20000x128_S160000x1_S160000x128_1_0_n_n_0_1_1128_wf : GatherDims.WF S20000x128 S160000x1 S160000x128 [1] [0] [] [0] [] 1 ![1, 128]
  scatter_S20000x128_S160000x1_S160000x128_1_0_0_1_wf : ScatterDims.WF S20000x128 S160000x1 S160000x128 [1] [0] [0] 1
  scatter_S20000_S160000x1_S160000_n_0_0_1_wf : ScatterDims.WF S20000 S160000x1 S160000 [] [0] [0] 1
  dot_S20000x128_S128x1024_S20000x1024_1_0_0_1_n_n_wf : DotDims.WF S20000x128 S128x1024 S20000x1024 [1] [0] [0] [1] [] []
  gather_S20000x1024_S160000x1_S160000x1024_1_0_n_n_0_1_11024_wf : GatherDims.WF S20000x1024 S160000x1 S160000x1024 [1] [0] [] [0] [] 1 ![1, 1024]
  scatter_S20000x1024_S160000x1_S160000x1024_1_0_0_1_wf : ScatterDims.WF S20000x1024 S160000x1 S160000x1024 [1] [0] [0] 1
  dot_S20000x1024_S1024x512_S20000x512_1_0_0_1_n_n_wf : DotDims.WF S20000x1024 S1024x512 S20000x512 [1] [0] [0] [1] [] []
  gather_S20000x512_S160000x1_S160000x512_1_0_n_n_0_1_1512_wf : GatherDims.WF S20000x512 S160000x1 S160000x512 [1] [0] [] [0] [] 1 ![1, 512]
  scatter_S20000x512_S160000x1_S160000x512_1_0_0_1_wf : ScatterDims.WF S20000x512 S160000x1 S160000x512 [1] [0] [0] 1
  dot_S20000x512_S512x8_S20000x8_1_0_0_1_n_n_wf : DotDims.WF S20000x512 S512x8 S20000x8 [1] [0] [0] [1] [] []

variable [Facts₀]

def gather_S20000x128_S160000x1_S160000x128_1_0_n_n_0_1_1128 : GatherDims S20000x128 S160000x1 S160000x128 where
  offsetDims := [1]
  collapsedSliceDims := [0]
  operandBatchingDims := []
  startIndicesBatchingDims := []
  startIndexMap := [0]
  indexVectorDim := 1
  sliceSizes := ![1, 128]
  wf := gather_S20000x128_S160000x1_S160000x128_1_0_n_n_0_1_1128_wf
def scatter_S20000x128_S160000x1_S160000x128_1_0_0_1 : ScatterDims S20000x128 S160000x1 S160000x128 where
  updateWindowDims := [1]
  insertedWindowDims := [0]
  scatterDimsToOperandDims := [0]
  indexVectorDim := 1
  wf := scatter_S20000x128_S160000x1_S160000x128_1_0_0_1_wf
def scatter_S20000_S160000x1_S160000_n_0_0_1 : ScatterDims S20000 S160000x1 S160000 where
  updateWindowDims := []
  insertedWindowDims := [0]
  scatterDimsToOperandDims := [0]
  indexVectorDim := 1
  wf := scatter_S20000_S160000x1_S160000_n_0_0_1_wf
def dot_S20000x128_S128x1024_S20000x1024_1_0_0_1_n_n : DotDims S20000x128 S128x1024 S20000x1024 where
  lhsContracting := [1]
  rhsContracting := [0]
  lhsNonContracting := [0]
  rhsNonContracting := [1]
  lhsBatch := []
  rhsBatch := []
  wf := dot_S20000x128_S128x1024_S20000x1024_1_0_0_1_n_n_wf
def gather_S20000x1024_S160000x1_S160000x1024_1_0_n_n_0_1_11024 : GatherDims S20000x1024 S160000x1 S160000x1024 where
  offsetDims := [1]
  collapsedSliceDims := [0]
  operandBatchingDims := []
  startIndicesBatchingDims := []
  startIndexMap := [0]
  indexVectorDim := 1
  sliceSizes := ![1, 1024]
  wf := gather_S20000x1024_S160000x1_S160000x1024_1_0_n_n_0_1_11024_wf
def scatter_S20000x1024_S160000x1_S160000x1024_1_0_0_1 : ScatterDims S20000x1024 S160000x1 S160000x1024 where
  updateWindowDims := [1]
  insertedWindowDims := [0]
  scatterDimsToOperandDims := [0]
  indexVectorDim := 1
  wf := scatter_S20000x1024_S160000x1_S160000x1024_1_0_0_1_wf
def dot_S20000x1024_S1024x512_S20000x512_1_0_0_1_n_n : DotDims S20000x1024 S1024x512 S20000x512 where
  lhsContracting := [1]
  rhsContracting := [0]
  lhsNonContracting := [0]
  rhsNonContracting := [1]
  lhsBatch := []
  rhsBatch := []
  wf := dot_S20000x1024_S1024x512_S20000x512_1_0_0_1_n_n_wf
def gather_S20000x512_S160000x1_S160000x512_1_0_n_n_0_1_1512 : GatherDims S20000x512 S160000x1 S160000x512 where
  offsetDims := [1]
  collapsedSliceDims := [0]
  operandBatchingDims := []
  startIndicesBatchingDims := []
  startIndexMap := [0]
  indexVectorDim := 1
  sliceSizes := ![1, 512]
  wf := gather_S20000x512_S160000x1_S160000x512_1_0_n_n_0_1_1512_wf
def scatter_S20000x512_S160000x1_S160000x512_1_0_0_1 : ScatterDims S20000x512 S160000x1 S160000x512 where
  updateWindowDims := [1]
  insertedWindowDims := [0]
  scatterDimsToOperandDims := [0]
  indexVectorDim := 1
  wf := scatter_S20000x512_S160000x1_S160000x512_1_0_0_1_wf
def dot_S20000x512_S512x8_S20000x8_1_0_0_1_n_n : DotDims S20000x512 S512x8 S20000x8 where
  lhsContracting := [1]
  rhsContracting := [0]
  lhsNonContracting := [0]
  rhsNonContracting := [1]
  lhsBatch := []
  rhsBatch := []
  wf := dot_S20000x512_S512x8_S20000x8_1_0_0_1_n_n_wf

class Facts : Prop extends Facts₀ where

variable [Facts]
-- ==== Proof.LibPlainMatmul.lean ====
/-
  A general fact about the ideal reading of a matrix product, independent of any program: a kernel's matrix product of an
  m×k by a k×n matrix (no batch axis; the left operand's columns contracted with the right operand's rows) into a zero
  accumulator, read at the entry (a, b), is the textbook sum  Σ_c A(a, c) · B(c, b)  on the extended reals.
  (The host's `dot_general` of the same shape has this reading in the library already; this is its twin for the kernel's
  accumulate-into-zero form.)
-/
import Idealize.ShloMosaic.PureOps.Ideal.Laws
import Idealize.ShloMosaic.Lib.ValueIdx

noncomputable section

namespace Idealize.ShloMosaic.LibPlainMatmul

open Idealize.ShloMosaic Idealize.ShloMosaic.ValueIdx

/-- The plain product of an m×k by a k×n matrix accumulated into the f32 zero splat, at the ideal values and at the
    entry (a, b): the sum over the contracted coordinate c of A(a, c) · B(c, b). -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (⟨2, ![m, n]⟩ : Shape) .f32 0x00000000#32) (ix2 a b)
      = ∑ c : Fin k, A (ix2 a c) * B (ix2 c b) := by
  show FloatOps.matmul (DotDims.plain m k n) prec A B (constant (⟨2, ![m, n]⟩ : Shape) .f32 0x00000000#32) (ix2 a b) = _
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  -- the left operand is read at (a, c): its row is the output's row, its column the contracted coordinate
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  -- the right operand at (c, b): its row the contracted coordinate, its column the output's column
  have hr : (DotDims.plain m k n).rhsIdx (ix2 a b) ((contrEquiv1 _ k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [hl, hr]

end Idealize.ShloMosaic.LibPlainMatmul

end
-- ==== Proof.LibGraphConv.lean ====
/-
  General facts about one graph-convolution layer read on the extended reals, independent of any program.

  The layer: from a matrix A of neighbour means and the node features X (both M×K), two weight matrices W, W' (K×N) and a
  bias b (N entries), entry (p, q) of the result is
      (Σ_k A(p,k)·W(k,q) + Σ_k X(p,k)·W'(k,q)) + b(q),
  clamped below at zero when the layer has a rectifier (`layer`).
  * A kernel that multiplies a row tile of A and of X by the weights into zero accumulators, adds the two products, adds
    the bias row copied down the tile and takes the maximum with zero computes, at a tile entry, this expression of the
    tile's rows (`tile_apply`).
  * The host's form — (A·W + b) + X·W', the bias copied along the rows, then the maximum with a zero splat — is the same
    function: only the order of the two additions differs, and addition of extended reals is commutative and associative
    (`host_layer_eq`, `host_layer_relu_eq`).
  * The neighbour mean: a sum array S divided entrywise by the column max(deg, 1) is S times the column 1/max(deg, 1),
    because max(deg, 1) ≥ 1 is never zero, and off zero the ideal quotient x / y is x · y⁻¹ while 1 / y is y⁻¹
    (`mul_recip_eq_div`, `mean_mul_eq_div`).
-/
import Idealize.ShloMosaic.PureOps.Ideal.Laws
import Idealize.ShloMosaic.Lib.ValueIdx
import Idealize.ShloMosaic.Lib.Pipeline.Value
import Idealize.ShloMosaic.Lib.IdealHost
import Idealize.ShloMosaic.Lib.StackMember
import proofs.«103868_j47107201302764_1_alg».proof.Proof.LibPlainMatmul

noncomputable section

namespace LibGraphConv

open Idealize.ShloMosaic Idealize.ShloMosaic.ValueIdx

/-! ## The layer as one function of whole arrays -/

/-- Entry (p, q) of a graph-convolution layer: (Σ_k A(p,k)·W(k,q) + Σ_k X(p,k)·W'(k,q)) + b(q), clamped below at zero
    when `relu` is set. -/
def layer (relu : Bool) {M K N : ℕ} (A X : FVec Ideal ⟨2, ![M, K]⟩ .f32) (W : FVec Ideal ⟨2, ![K, N]⟩ .f32)
    (b : FVec Ideal ⟨1, ![N]⟩ .f32) (W' : FVec Ideal ⟨2, ![K, N]⟩ .f32) : FVec Ideal ⟨2, ![M, N]⟩ .f32 :=
  fun i => if relu then
      max (((∑ k : Fin K, A (ix2 (i 0) k) * W (ix2 k (i 1))) + ∑ k : Fin K, X (ix2 (i 0) k) * W' (ix2 k (i 1))) + b (ix1 (i 1))) 0
    else ((∑ k : Fin K, A (ix2 (i 0) k) * W (ix2 k (i 1))) + ∑ k : Fin K, X (ix2 (i 0) k) * W' (ix2 k (i 1))) + b (ix1 (i 1))

theorem layer_apply (relu : Bool) {M K N : ℕ} (A X : FVec Ideal ⟨2, ![M, K]⟩ .f32) (W : FVec Ideal ⟨2, ![K, N]⟩ .f32)
    (b : FVec Ideal ⟨1, ![N]⟩ .f32) (W' : FVec Ideal ⟨2, ![K, N]⟩ .f32) (p : Fin M) (q : Fin N) :
    layer relu A X W b W' (ix2 p q) = if relu then
      max (((∑ k : Fin K, A (ix2 p k) * W (ix2 k q)) + ∑ k : Fin K, X (ix2 p k) * W' (ix2 k q)) + b (ix1 q)) 0
    else ((∑ k : Fin K, A (ix2 p k) * W (ix2 k q)) + ∑ k : Fin K, X (ix2 p k) * W' (ix2 k q)) + b (ix1 q) := rfl

/-! ## A kernel's tile -/

/-- A one-row matrix copied down M rows reads, at (p, q), the row's entry q. -/
theorem broadcastTo_row_apply {α : Type} {M N : ℕ} (v : (⟨2, ![1, N]⟩ : Shape).Idx → α)
    (h : (⟨2, ![1, N]⟩ : Shape).Broadcasts ⟨2, ![M, N]⟩) (p : Fin M) (q : Fin N) :
    broadcastTo ⟨2, ![M, N]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if N = 1 then 0 else q.val
    split
    · have := q.isLt; omega
    · rfl

/-- The two products of a tile into zero accumulators, added, plus the bias row copied down the tile: at a tile entry
    the two sums over the contracted coordinate and the bias entry of that column. -/
theorem tile_apply {M K N : ℕ} {φ₁ φ₂ : FTy} (A X : FVec Ideal ⟨2, ![M, K]⟩ φ₁) (W W' : FVec Ideal ⟨2, ![K, N]⟩ φ₂)
    (b2 : FVec Ideal ⟨2, ![1, N]⟩ .f32) (hb : (⟨2, ![1, N]⟩ : Shape).Broadcasts ⟨2, ![M, N]⟩) (p : Fin M) (q : Fin N) :
    addf (addf (matmul (DotDims.plain M K N) none A W (constant (⟨2, ![M, N]⟩ : Shape) .f32 0x00000000#32))
        (matmul (DotDims.plain M K N) none X W' (constant (⟨2, ![M, N]⟩ : Shape) .f32 0x00000000#32)))
      (broadcastTo ⟨2, ![M, N]⟩ b2 hb) (ix2 p q)
    = ((∑ k : Fin K, A (ix2 p k) * W (ix2 k q)) + ∑ k : Fin K, X (ix2 p k) * W' (ix2 k q)) + b2 (ix2 (0 : Fin 1) q) := by
  rw [addf_apply, addf_apply, LibPlainMatmul.matmul_plain_zero_apply, LibPlainMatmul.matmul_plain_zero_apply,
    broadcastTo_row_apply]

/-- A vector cast to one row reads, at (0, q), the vector's entry q. -/
theorem shapeCast_row_apply {α : Type} {N : ℕ} (b : (⟨1, ![N]⟩ : Shape).Idx → α)
    (h : (⟨1, ![N]⟩ : Shape).ShapeCasts ⟨2, ![1, N]⟩) (q : Fin N) :
    shapeCast ⟨2, ![1, N]⟩ b h (ix2 (0 : Fin 1) q) = b (ix1 q) :=
  shapeCast_apply b h _ _ (by
    rw [Shape.rowMajor_val_two, Shape.rowMajor_val_one]
    show q.val = 0 * N + q.val
    omega)

/-- So the bias a kernel stages as one row is, column by column, the bias vector. -/
theorem row_of_cast {α : Type} {N : ℕ} (b : (⟨1, ![N]⟩ : Shape).Idx → α)
    (h : (⟨1, ![N]⟩ : Shape).ShapeCasts ⟨2, ![1, N]⟩) :
    (fun u : (⟨1, ![N]⟩ : Shape).Idx => shapeCast ⟨2, ![1, N]⟩ b h (ix2 (0 : Fin 1) (u 0))) = b :=
  funext fun u => (shapeCast_row_apply b h (u 0)).trans (congrArg b (eq_ix1 u).symm)

/-! ## The host's form of the layer -/

/-- A vector laid as one row and copied down M rows reads, at (p, q), the vector's entry q. -/
theorem bias_rows_apply {α : Type} {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = b (ix1 q) := by
  rw [broadcastInDim_apply ![0, 1] h2 _ (ix2 p q) (ix2 (0 : Fin 1) q) (fun ax => by
    match ax with
    | ⟨0, _⟩ => rfl
    | ⟨1, _⟩ =>
      show q.val = if N = 1 then 0 else q.val
      split
      · have := q.isLt; omega
      · rfl)]
  exact broadcastInDim_apply ![1] h1 b (ix2 (0 : Fin 1) q) (ix1 q) (fun ax => by
    match ax with
    | ⟨0, _⟩ =>
      show q.val = if N = 1 then 0 else q.val
      split
      · have := q.isLt; omega
      · rfl)

/-- The host's (A·W + b) + X·W' is the layer without a rectifier: the two additions in the other order. -/
theorem host_layer_eq {M K N : ℕ} (A X : FVec Ideal ⟨2, ![M, K]⟩ .f32) (W W' : FVec Ideal ⟨2, ![K, N]⟩ .f32)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) :
    addf (addf (Host.dotGeneral (DotDims.plain M K N) none A W)
        (broadcastInDim ⟨2, ![M, N]⟩ ![0, 1] h2 (broadcastInDim ⟨2, ![1, N]⟩ ![1] h1 b)))
      (Host.dotGeneral (DotDims.plain M K N) none X W')
    = layer false A X W b W' := by
  funext i
  obtain ⟨p, q, rfl⟩ : ∃ (p : Fin M) (q : Fin N), i = ix2 p q := ⟨i 0, i 1, eq_ix2 i⟩
  rw [layer_apply, addf_apply, addf_apply, StackMember.dotGeneral_plain_apply, StackMember.dotGeneral_plain_apply,
    bias_rows_apply]
  exact add_right_comm _ _ _

/-- … and with the maximum against a zero splat it is the layer with its rectifier. -/
theorem host_layer_relu_eq {M K N : ℕ} (A X : FVec Ideal ⟨2, ![M, K]⟩ .f32) (W W' : FVec Ideal ⟨2, ![K, N]⟩ .f32)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf (addf (Host.dotGeneral (DotDims.plain M K N) none A W)
        (broadcastInDim ⟨2, ![M, N]⟩ ![0, 1] h2 (broadcastInDim ⟨2, ![1, N]⟩ ![1] h1 b)))
      (Host.dotGeneral (DotDims.plain M K N) none X W'))
      (broadcastInDim ⟨2, ![M, N]⟩ ![] h0 (constant (⟨0, ![]⟩ : Shape) .f32 0x00000000#32))
    = layer true A X W b W' := by
  rw [host_layer_eq]
  funext i
  obtain ⟨p, q, rfl⟩ : ∃ (p : Fin M) (q : Fin N), i = ix2 p q := ⟨i 0, i 1, eq_ix2 i⟩
  rw [maximumf_apply, layer_apply, layer_apply,
    broadcastInDim_apply ![] h0 _ (ix2 p q) ix0 (fun ax => ax.elim0), constant_apply, Ideal.ofBits_zero_f32]
  rfl

/-! ## The neighbour mean: times the reciprocal column, or divided by the column -/

/-- Off zero the ideal quotient is the product with the inverse, so x · (1 / y) = x / y. -/
theorem mul_recip_eq_div (x y : EReal) (hy : y ≠ 0) : x * Ideal.div 1 y = Ideal.div x y := by
  unfold Ideal.div
  rw [if_neg hy, if_neg hy, one_mul]

/-- A vector of per-row values made a column and copied across the row reads, at (p, q), the value of row p. -/
theorem column_apply {α : Type} {n K : ℕ} (v : (⟨1, ![n]⟩ : Shape).Idx → α)
    (h1 : (⟨1, ![n]⟩ : Shape).BroadcastsInDim ⟨2, ![n, 1]⟩ ![0])
    (h2 : (⟨2, ![n, 1]⟩ : Shape).BroadcastsInDim ⟨2, ![n, K]⟩ ![0, 1]) (p : Fin n) (q : Fin K) :
    broadcastInDim ⟨2, ![n, K]⟩ ![0, 1] h2 (broadcastInDim ⟨2, ![n, 1]⟩ ![0] h1 v) (ix2 p q) = v (ix1 p) := by
  rw [broadcastInDim_apply ![0, 1] h2 _ (ix2 p q) (ix2 p (0 : Fin 1)) (fun ax => by
    match ax with
    | ⟨0, _⟩ =>
      show p.val = if n = 1 then 0 else p.val
      split
      · have := p.isLt; omega
      · rfl
    | ⟨1, _⟩ => rfl)]
  exact broadcastInDim_apply ![0] h1 v (ix2 p (0 : Fin 1)) (ix1 p) (fun ax => by
    match ax with
    | ⟨0, _⟩ =>
      show p.val = if n = 1 then 0 else p.val
      split
      · have := p.isLt; omega
      · rfl)

/-- The sums S times the column 1 / max(deg, 1) is S divided by the column max(deg, 1): the divisor is at least one. -/
theorem mean_mul_eq_div {n K : ℕ} (S : FVec Ideal ⟨2, ![n, K]⟩ .f32) (deg : FVec Ideal ⟨1, ![n]⟩ .f32)
    (h0 : (⟨0, ![]⟩ : Shape).BroadcastsInDim ⟨1, ![n]⟩ ![])
    (h1 : (⟨1, ![n]⟩ : Shape).BroadcastsInDim ⟨2, ![n, 1]⟩ ![0])
    (h2 : (⟨2, ![n, 1]⟩ : Shape).BroadcastsInDim ⟨2, ![n, K]⟩ ![0, 1]) :
    mulf S (broadcastInDim ⟨2, ![n, K]⟩ ![0, 1] h2 (broadcastInDim ⟨2, ![n, 1]⟩ ![0] h1
      (Host.divf (broadcastInDim ⟨1, ![n]⟩ ![] h0 (constant (⟨0, ![]⟩ : Shape) .f32 0x3F800000#32))
        (maximumf deg (broadcastInDim ⟨1, ![n]⟩ ![] h0 (constant (⟨0, ![]⟩ : Shape) .f32 0x3F800000#32))))))
    = Host.divf S (broadcastInDim ⟨2, ![n, K]⟩ ![0, 1] h2 (broadcastInDim ⟨2, ![n, 1]⟩ ![0] h1
        (maximumf deg (broadcastInDim ⟨1, ![n]⟩ ![] h0 (constant (⟨0, ![]⟩ : Shape) .f32 0x3F800000#32))))) := by
  funext i
  obtain ⟨p, q, rfl⟩ : ∃ (p : Fin n) (q : Fin K), i = ix2 p q := ⟨i 0, i 1, eq_ix2 i⟩
  rw [mulf_apply, column_apply]
  show S (ix2 p q) * Ideal.div _ _ = Ideal.div (S (ix2 p q)) _
  rw [column_apply, maximumf_apply, broadcastInDim_apply ![] h0 _ (ix1 p) ix0 (fun ax => ax.elim0), constant_apply,
    Ideal.ofBits_one_f32]
  refine mul_recip_eq_div _ _ ?_
  exact (lt_of_lt_of_le zero_lt_one (le_max_right _ _)).ne'

end LibGraphConv

end
-- ==== Proof.KernelNet.lean ====
/-
  The network the kernel program computes, as functions of whole arrays.

  Between its four kernel regions @main runs stretches of host operations; here each stretch is a function of what the
  buffers held before it: the source and destination index vectors cut from the edge table, the degree column
  1 / max(deg, 1), and the neighbour mean of the current features — the features gathered at the edges' sources, summed
  at their destinations, times the degree column (`mean128`, `mean1024`, `mean512`). The four layers composed are
  `h1`, `h2`, and `out` at the two output layers' weights.
-/
import proofs.«103868_j47107201302764_1_alg».proof.Proof.Gen.KernelIdeal
import proofs.«103868_j47107201302764_1_alg».proof.Proof.LibGraphConv

set_option maxRecDepth 16384

noncomputable section

namespace Cert.KernelIdeal.Net

open Cert.KernelIdeal Cert.KernelIdeal.Gen
open Idealize.ShloMosaic Idealize.ShloMosaic.TcCoe Idealize.ShloMosaic.ValueIdx Idealize.SL.Sem Idealize.ShloMosaic.StableHlo
open LibGraphConv

/-! ## The host stretches as functions -/

section Chains
variable {F : FTy → Type} [FloatOps F]

/-- The edges' sources: row 0 of the edge table as a vector. -/
def src (E : IVec S2x160000 32) : IVec S160000 32 :=
  shapeCast _ (extractStridedSlice S1x160000 ![0, 0] E slices_S2x160000_S1x160000_0_0) shapeCasts_S1x160000_S160000
/-- The edges' destinations: row 1 of the edge table as a vector. -/
def dst (E : IVec S2x160000 32) : IVec S160000 32 :=
  shapeCast _ (extractStridedSlice S1x160000 ![1, 0] E slices_S2x160000_S1x160000_1_0) shapeCasts_S1x160000_S160000
/-- The gather's index column: a negative source wrapped by the node count, as a column. -/
def gcol (s : IVec S160000 32) : IVec S160000x1 32 :=
  broadcastInDim S160000x1 ![0] bcast_S160000_S160000x1_0
    (select (cmpi .slt s (broadcastInDim S160000 ![] bcast_S_S160000 (constantI S_ 32 0#32)))
      (addi s (broadcastInDim S160000 ![] bcast_S_S160000 (constantI S_ 32 20000#32))) s)
/-- The scatter's index column: the destinations as a column. -/
def scol (d : IVec S160000 32) : IVec S160000x1 32 :=
  broadcastInDim S160000x1 ![0] bcast_S160000_S160000x1_0 d
/-- The in-degree of every node: ones summed at the destinations. -/
def deg (d : IVec S160000 32) : FVec F S20000 .f32 :=
  Host.scatterAdd scatter_S20000_S160000x1_S160000_n_0_0_1 (broadcastInDim S20000 ![] bcast_S_S20000 (constant S_ .f32 0x00000000#32))
    (scol d) (broadcastInDim S160000 ![] bcast_S_S160000 (constant S_ .f32 0x3F800000#32))
/-- The degree column 1 / max(deg, 1). -/
def dinv (d : IVec S160000 32) : FVec F S20000x1 .f32 :=
  broadcastInDim S20000x1 ![0] bcast_S20000_S20000x1_0
    (Host.divf (broadcastInDim S20000 ![] bcast_S_S20000 (constant S_ .f32 0x3F800000#32))
      (maximumf (deg d) (broadcastInDim S20000 ![] bcast_S_S20000 (constant S_ .f32 0x3F800000#32))))

/-- The features gathered at the sources and summed at the destinations, 128 columns. -/
def sum128 (s d : IVec S160000 32) (X : FVec F S20000x128 .f32) :
    FVec F S20000x128 .f32 :=
  Host.scatterAdd scatter_S20000x128_S160000x1_S160000x128_1_0_0_1 (broadcastInDim S20000x128 ![] bcast_S_S20000x128 (constant S_ .f32 0x00000000#32))
    (scol d) (Host.gather gather_S20000x128_S160000x1_S160000x128_1_0_n_n_0_1_1128 X (gcol s))
/-- … times the degree column: the neighbour mean. -/
def mean128 (s d : IVec S160000 32) (dv : FVec F S20000x1 .f32)
    (X : FVec F S20000x128 .f32) : FVec F S20000x128 .f32 :=
  mulf (sum128 s d X) (broadcastInDim S20000x128 ![0, 1] bcast_S20000x1_S20000x128_0_1 dv)

/-- The same at 1024 columns. -/
def sum1024 (s d : IVec S160000 32) (X : FVec F S20000x1024 .f32) :
    FVec F S20000x1024 .f32 :=
  Host.scatterAdd scatter_S20000x1024_S160000x1_S160000x1024_1_0_0_1 (broadcastInDim S20000x1024 ![] bcast_S_S20000x1024 (constant S_ .f32 0x00000000#32))
    (scol d) (Host.gather gather_S20000x1024_S160000x1_S160000x1024_1_0_n_n_0_1_11024 X (gcol s))
def mean1024 (s d : IVec S160000 32) (dv : FVec F S20000x1 .f32)
    (X : FVec F S20000x1024 .f32) : FVec F S20000x1024 .f32 :=
  mulf (sum1024 s d X) (broadcastInDim S20000x1024 ![0, 1] bcast_S20000x1_S20000x1024_0_1 dv)

/-- The same at 512 columns. -/
def sum512 (s d : IVec S160000 32) (X : FVec F S20000x512 .f32) :
    FVec F S20000x512 .f32 :=
  Host.scatterAdd scatter_S20000x512_S160000x1_S160000x512_1_0_0_1 (broadcastInDim S20000x512 ![] bcast_S_S20000x512 (constant S_ .f32 0x00000000#32))
    (scol d) (Host.gather gather_S20000x512_S160000x1_S160000x512_1_0_n_n_0_1_1512 X (gcol s))
def mean512 (s d : IVec S160000 32) (dv : FVec F S20000x1 .f32)
    (X : FVec F S20000x512 .f32) : FVec F S20000x512 .f32 :=
  mulf (sum512 s d X) (broadcastInDim S20000x512 ![0, 1] bcast_S20000x1_S20000x512_0_1 dv)

end Chains

/-! ## The four layers composed -/

section Layers
variable (x : FVec Ideal S20000x128 .f32) (E : IVec S2x160000 32)
  (w1r : FVec Ideal S128x1024 .f32) (b1 : FVec Ideal S1024 .f32) (w1o : FVec Ideal S128x1024 .f32)
  (w2r : FVec Ideal S1024x512 .f32) (b2 : FVec Ideal S512 .f32) (w2o : FVec Ideal S1024x512 .f32)

/-- The first hidden layer. -/
def h1 : FVec Ideal S20000x1024 .f32 :=
  layer true (mean128 (F := Ideal) (src E) (dst E) (dinv (dst E)) x) x w1r b1 w1o
/-- The second hidden layer. -/
def h2 : FVec Ideal S20000x512 .f32 :=
  layer true (mean1024 (F := Ideal) (src E) (dst E) (dinv (dst E)) (h1 x E w1r b1 w1o)) (h1 x E w1r b1 w1o) w2r b2 w2o
/-- An output layer (the mean and the log standard deviation differ only in their weights). -/
def out (wr : FVec Ideal S512x8 .f32) (b : FVec Ideal S8 .f32) (wo : FVec Ideal S512x8 .f32) : FVec Ideal S20000x8 .f32 :=
  layer false (mean512 (F := Ideal) (src E) (dst E) (dinv (dst E)) (h2 x E w1r b1 w1o w2r b2 w2o)) (h2 x E w1r b1 w1o w2r b2 w2o) wr b wo

end Layers

end Cert.KernelIdeal.Net

end
-- ==== Proof.Region0.lean ====
/-
  The first kernel region — the hidden layer 128 → 1024 with its rectifier — read as one function of whole arrays.
  The grid has twenty points; point t stages rows 1000·t … 1000·t + 999 of the neighbour means and of the node features,
  the two weight matrices and the bias row whole, and writes back rows 1000·t … of the result. The tile the body stores is,
  entry by entry, the layer's expression of the staged rows (two sums over the 128 contracted coordinates, the bias entry
  of the column, the maximum with zero), so what point t writes back is block t of the layer of the WHOLE arrays; the
  twenty blocks cover the 20000 rows, and the result array ends holding the layer of the arrays the region was entered with.
-/
import proofs.«103868_j47107201302764_1_alg».proof.Proof.Gen.KernelIdeal.Frame
import proofs.«103868_j47107201302764_1_alg».proof.Proof.LibGraphConv

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat)
open LibGraphConv

/-! ## The tile the body stores, entry by entry -/

/-- The body's arithmetic at a tile entry (p, q): format changes and casts to the same shape are the identity, each
    product into a zero accumulator is the sum over the contracted coordinate, the bias row is copied down the tile. -/
theorem pay_apply (x0 x1 : Vec Ideal S1000x128 .f32) (x2 x4 : Vec Ideal S128x1024 .f32) (x3 : Vec Ideal S1x1024 .f32)
    (p : Fin 1000) (q : Fin 1024) :
    k0_pay1 x0 x1 x2 x4 x3 (ix2 p q)
      = max (((∑ k : Fin 128, x0 (ix2 p k) * x2 (ix2 k q)) + ∑ k : Fin 128, x1 (ix2 p k) * x4 (ix2 k q))
          + x3 (ix2 (0 : Fin 1) q)) 0 := by
  unfold k0_pay1
  simp only [shapeCast_self]
  refine (maximumf_apply _ _ _).trans ?_
  refine congrArg₂ max ?_ ?_
  · exact tile_apply (φ₁ := .bf16) (φ₂ := .bf16) _ _ _ _ _ _ p q
  · show Ideal.ofBits .f32 0x00000000#32 = 0
    exact Ideal.ofBits_zero_f32

/-- A tile entry against the whole arrays: when the staged rows are rows T·1000 + p of the arrays and the weights and the
    bias row are staged whole, entry j of the tile is the layer's entry at row T·1000 + j₀, column j₁. -/
theorem point_eq (x0 x1 : Vec Ideal S1000x128 .f32) (x2 x4 : Vec Ideal S128x1024 .f32) (x3 : Vec Ideal S1x1024 .f32)
    (A X : FVec Ideal S20000x128 .f32) (W W' : FVec Ideal S128x1024 .f32) (b2 : FVec Ideal S1x1024 .f32) (T : ℕ)
    (h0 : ∀ (p : Fin 1000) (k : Fin 128) (r : Fin 20000), r.val = T * 1000 + p.val → x0 (ix2 p k) = A (ix2 r k))
    (h1 : ∀ (p : Fin 1000) (k : Fin 128) (r : Fin 20000), r.val = T * 1000 + p.val → x1 (ix2 p k) = X (ix2 r k))
    (h2 : x2 = W) (h4 : x4 = W') (h3 : x3 = b2)
    (j : S1000x1024.Idx) (i : S20000x1024.Idx) (hi0 : (i 0).val = T * 1000 + (j 0).val) (hi1 : (i 1).val = (j 1).val) :
    k0_pay1 x0 x1 x2 x4 x3 j = layer true A X W (fun u => b2 (ix2 (0 : Fin 1) (u 0))) W' i := by
  subst h2 h4 h3
  obtain ⟨p, q, rfl⟩ : ∃ (p : Fin 1000) (q : Fin 1024), j = ix2 p q := ⟨j 0, j 1, eq_ix2 j⟩
  obtain ⟨r, s, rfl⟩ : ∃ (r : Fin 20000) (s : Fin 1024), i = ix2 r s := ⟨i 0, i 1, eq_ix2 i⟩
  have hs : s = q := Fin.ext hi1
  subst hs
  rw [pay_apply, layer_apply, if_pos rfl]
  refine congrArg₂ max (congrArg₂ (· + ·) (congrArg₂ (· + ·) ?_ ?_) rfl) rfl
  · exact Finset.sum_congr rfl fun k _ => by rw [h0 p k r hi0]
  · exact Finset.sum_congr rfl fun k _ => by rw [h1 p k r hi0]

/-! ## From the tiles to the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-tiled windows are at block (t, 0), the whole ones at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The result of the layer on the arrays the region is entered with. -/
abbrev result (c : Dev nD) : FVec Ideal S20000x1024 .f32 :=
  layer true (V c main_v24) (V c main_arg0) (V c main_arg2) (fun u => V c main_v25 (ix2 (0 : Fin 1) (u 0))) (V c main_arg4)

/-- What point t writes back is block t of the layer of the whole arrays. -/
theorem flushed_eq (c : Dev nD) (t : Fin cfg0.N) :
    (dat0 V c).flushed 5 t = ((cfg0.win 5).blk t).view.read (Elt Ideal) (result V c) := by
  show (cfg0.win 5).cut (grid0.coords t) ((dat0 V c).after 5 t) = _
  rw [after0_5]
  unfold out0_5
  rw [View.canon_unit_zero hz]
  simp only [View.ld_unit_zero (S := S1000x128) hz, View.ld_unit_zero (S := S128x1024) hz, View.ld_unit_zero (S := S1x1024) hz]
  obtain ⟨e00, e01, e10, e11, e20, e21, e30, e31, e40, e41, e50, e51⟩ := idx_facts t
  funext j
  refine point_eq (iblk0 V c 0 t) (iblk0 V c 1 t) (iblk0 V c 2 t) (iblk0 V c 4 t) (iblk0 V c 3 t)
    (V c main_v24) (V c main_arg0) (V c main_arg2) (V c main_arg4) (V c main_v25) t.val ?_ ?_ ?_ ?_ ?_ j
    (((cfg0.win 5).blk t).view.emb j) ?_ ?_
  · intro p k r hr
    show V c main_v24 (((cfg0.win 0).blk t).view.emb (ix2 p k)) = V c main_v24 (ix2 r k)
    refine congrArg _ (funext fun a => Fin.ext ?_)
    match a with
    | ⟨0, _⟩ => show win0_0.index t (0 : Fin 2) * 1000 + 1 * p.val = r.val; omega
    | ⟨1, _⟩ => show win0_0.index t (1 : Fin 2) * 128 + 1 * k.val = k.val; omega
  · intro p k r hr
    show V c main_arg0 (((cfg0.win 1).blk t).view.emb (ix2 p k)) = V c main_arg0 (ix2 r k)
    refine congrArg _ (funext fun a => Fin.ext ?_)
    match a with
    | ⟨0, _⟩ => show win0_1.index t (0 : Fin 2) * 1000 + 1 * p.val = r.val; omega
    | ⟨1, _⟩ => show win0_1.index t (1 : Fin 2) * 128 + 1 * k.val = k.val; omega
  · funext y
    show V c main_arg2 (((cfg0.win 2).blk t).view.emb y) = V c main_arg2 y
    refine congrArg _ (funext fun a => Fin.ext ?_)
    match a with
    | ⟨0, _⟩ => show win0_2.index t (0 : Fin 2) * 128 + 1 * (y 0).val = (y 0).val; omega
    | ⟨1, _⟩ => show win0_2.index t (1 : Fin 2) * 1024 + 1 * (y 1).val = (y 1).val; omega
  · funext y
    show V c main_arg4 (((cfg0.win 4).blk t).view.emb y) = V c main_arg4 y
    refine congrArg _ (funext fun a => Fin.ext ?_)
    match a with
    | ⟨0, _⟩ => show win0_4.index t (0 : Fin 2) * 128 + 1 * (y 0).val = (y 0).val; omega
    | ⟨1, _⟩ => show win0_4.index t (1 : Fin 2) * 1024 + 1 * (y 1).val = (y 1).val; omega
  · funext y
    show V c main_v25 (((cfg0.win 3).blk t).view.emb y) = V c main_v25 y
    refine congrArg _ (funext fun a => Fin.ext ?_)
    match a with
    | ⟨0, _⟩ => show win0_3.index t (0 : Fin 2) * 1 + 1 * (y 0).val = (y 0).val; omega
    | ⟨1, _⟩ => show win0_3.index t (1 : Fin 2) * 1024 + 1 * (y 1).val = (y 1).val; omega
  · show win0_5.index t (0 : Fin 2) * 1000 + 1 * (j 0).val = t.val * 1000 + (j 0).val; omega
  · show win0_5.index t (1 : Fin 2) * 1024 + 1 * (j 1).val = (j 1).val; omega

/-- An index of the result array is in point t's block iff each coordinate is in the block's range on its axis. -/
theorem mem_blk (t : Fin cfg0.N) (i : S20000x1024.Idx) :
    i ∈ ((cfg0.win 5).blk t).view.set ↔ ∀ a : Fin 2, win0_5.index t a * S1000x1024.size a ≤ (i a).val
      ∧ (i a).val < win0_5.index t a * S1000x1024.size a + S1000x1024.size a := by
  show i ∈ ((View.whole main_v26).slice (win0_5.rect t)).set ↔ _
  rw [View.set_slice_whole, Rect.mem_set_unit]
  exact Iff.rfl

/-- Every row of the result array lies in the block of the point its thousand names. -/
theorem cover (i : S20000x1024.Idx) :
    ∃ t : Fin cfg0.N, (cfg0.win 5).flush t = true ∧ i ∈ ((cfg0.win 5).blk t).view.set := by
  have hi0 : (i 0).val < 20000 := (i 0).isLt
  have hi1 : (i 1).val < 1024 := (i 1).isLt
  refine ⟨⟨(i 0).val / 1000, by show (i 0).val / 1000 < 20; omega⟩, flush0_5 _, ?_⟩
  obtain ⟨e00, e01, e10, e11, e20, e21, e30, e31, e40, e41, e50, e51⟩ := idx_facts ⟨(i 0).val / 1000, by show (i 0).val / 1000 < 20; omega⟩
  rw [mem_blk]
  intro a
  match a with
  | ⟨0, _⟩ =>
    show win0_5.index _ (0 : Fin 2) * 1000 ≤ (i 0).val ∧ (i 0).val < win0_5.index _ (0 : Fin 2) * 1000 + 1000
    rw [e50]; show (i 0).val / 1000 * 1000 ≤ (i 0).val ∧ (i 0).val < (i 0).val / 1000 * 1000 + 1000; omega
  | ⟨1, _⟩ =>
    show win0_5.index _ (1 : Fin 2) * 1024 ≤ (i 1).val ∧ (i 1).val < win0_5.index _ (1 : Fin 2) * 1024 + 1024
    rw [e51]; omega

/-- The result array after the region: the layer of the arrays the region was entered with. -/
theorem final (c : Dev nD) : (dat0 V c).arrAt 5 cfg0.N = result V c :=
  (dat0 V c).arrAt_eq_of_cover 5 (result V c) (fun t _ => flushed_eq V c t) (cover)

end Cert.KernelIdeal.Region0

end
-- ==== Proof.Region1.lean ====
/-
  The second kernel region — the hidden layer 1024 → 512 with its rectifier — read as one function of whole arrays.
  The grid has twenty points; point t stages rows 1000·t … 1000·t + 999 of the neighbour means and of the node features,
  the two weight matrices and the bias row whole, and writes back rows 1000·t … of the result. The tile the body stores is,
  entry by entry, the layer's expression of the staged rows (two sums over the 1024 contracted coordinates, the bias entry
  of the column, the maximum with zero), so what point t writes back is block t of the layer of the WHOLE arrays; the
  twenty blocks cover the 20000 rows, and the result array ends holding the layer of the arrays the region was entered with.
-/
import proofs.«103868_j47107201302764_1_alg».proof.Proof.Gen.KernelIdeal.Frame
import proofs.«103868_j47107201302764_1_alg».proof.Proof.LibGraphConv

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat)
open LibGraphConv

/-! ## The tile the body stores, entry by entry -/

/-- The body's arithmetic at a tile entry (p, q): format changes and casts to the same shape are the identity, each
    product into a zero accumulator is the sum over the contracted coordinate, the bias row is copied down the tile. -/
theorem pay_apply (x0 x1 : Vec Ideal S1000x1024 .f32) (x2 x4 : Vec Ideal S1024x512 .f32) (x3 : Vec Ideal S1x512 .f32)
    (p : Fin 1000) (q : Fin 512) :
    k1_pay1 x0 x1 x2 x4 x3 (ix2 p q)
      = max (((∑ k : Fin 1024, x0 (ix2 p k) * x2 (ix2 k q)) + ∑ k : Fin 1024, x1 (ix2 p k) * x4 (ix2 k q))
          + x3 (ix2 (0 : Fin 1) q)) 0 := by
  unfold k1_pay1
  simp only [shapeCast_self]
  refine (maximumf_apply _ _ _).trans ?_
  refine congrArg₂ max ?_ ?_
  · exact tile_apply (φ₁ := .bf16) (φ₂ := .bf16) _ _ _ _ _ _ p q
  · show Ideal.ofBits .f32 0x00000000#32 = 0
    exact Ideal.ofBits_zero_f32

/-- A tile entry against the whole arrays: when the staged rows are rows T·1000 + p of the arrays and the weights and the
    bias row are staged whole, entry j of the tile is the layer's entry at row T·1000 + j₀, column j₁. -/
theorem point_eq (x0 x1 : Vec Ideal S1000x1024 .f32) (x2 x4 : Vec Ideal S1024x512 .f32) (x3 : Vec Ideal S1x512 .f32)
    (A X : FVec Ideal S20000x1024 .f32) (W W' : FVec Ideal S1024x512 .f32) (b2 : FVec Ideal S1x512 .f32) (T : ℕ)
    (h0 : ∀ (p : Fin 1000) (k : Fin 1024) (r : Fin 20000), r.val = T * 1000 + p.val → x0 (ix2 p k) = A (ix2 r k))
    (h1 : ∀ (p : Fin 1000) (k : Fin 1024) (r : Fin 20000), r.val = T * 1000 + p.val → x1 (ix2 p k) = X (ix2 r k))
    (h2 : x2 = W) (h4 : x4 = W') (h3 : x3 = b2)
    (j : S1000x512.Idx) (i : S20000x512.Idx) (hi0 : (i 0).val = T * 1000 + (j 0).val) (hi1 : (i 1).val = (j 1).val) :
    k1_pay1 x0 x1 x2 x4 x3 j = layer true A X W (fun u => b2 (ix2 (0 : Fin 1) (u 0))) W' i := by
  subst h2 h4 h3
  obtain ⟨p, q, rfl⟩ : ∃ (p : Fin 1000) (q : Fin 512), j = ix2 p q := ⟨j 0, j 1, eq_ix2 j⟩
  obtain ⟨r, s, rfl⟩ : ∃ (r : Fin 20000) (s : Fin 512), i = ix2 r s := ⟨i 0, i 1, eq_ix2 i⟩
  have hs : s = q := Fin.ext hi1
  subst hs
  rw [pay_apply, layer_apply, if_pos rfl]
  refine congrArg₂ max (congrArg₂ (· + ·) (congrArg₂ (· + ·) ?_ ?_) rfl) rfl
  · exact Finset.sum_congr rfl fun k _ => by rw [h0 p k r hi0]
  · exact Finset.sum_congr rfl fun k _ => by rw [h1 p k r hi0]

/-! ## From the tiles to the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-tiled windows are at block (t, 0), the whole ones at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The result of the layer on the arrays the region is entered with. -/
abbrev result (c : Dev nD) : FVec Ideal S20000x512 .f32 :=
  layer true (V c main_v38) (V c main_v26) (V c main_arg5) (fun u => V c main_v39 (ix2 (0 : Fin 1) (u 0))) (V c main_arg7)

/-- What point t writes back is block t of the layer of the whole arrays. -/
theorem flushed_eq (c : Dev nD) (t : Fin cfg1.N) :
    (dat1 V c).flushed 5 t = ((cfg1.win 5).blk t).view.read (Elt Ideal) (result V c) := by
  show (cfg1.win 5).cut (grid1.coords t) ((dat1 V c).after 5 t) = _
  rw [after1_5]
  unfold out1_5
  rw [View.canon_unit_zero hz]
  simp only [View.ld_unit_zero (S := S1000x1024) hz, View.ld_unit_zero (S := S1024x512) hz, View.ld_unit_zero (S := S1x512) hz]
  obtain ⟨e00, e01, e10, e11, e20, e21, e30, e31, e40, e41, e50, e51⟩ := idx_facts t
  funext j
  refine point_eq (iblk1 V c 0 t) (iblk1 V c 1 t) (iblk1 V c 2 t) (iblk1 V c 4 t) (iblk1 V c 3 t)
    (V c main_v38) (V c main_v26) (V c main_arg5) (V c main_arg7) (V c main_v39) t.val ?_ ?_ ?_ ?_ ?_ j
    (((cfg1.win 5).blk t).view.emb j) ?_ ?_
  · intro p k r hr
    show V c main_v38 (((cfg1.win 0).blk t).view.emb (ix2 p k)) = V c main_v38 (ix2 r k)
    refine congrArg _ (funext fun a => Fin.ext ?_)
    match a with
    | ⟨0, _⟩ => show win1_0.index t (0 : Fin 2) * 1000 + 1 * p.val = r.val; omega
    | ⟨1, _⟩ => show win1_0.index t (1 : Fin 2) * 1024 + 1 * k.val = k.val; omega
  · intro p k r hr
    show V c main_v26 (((cfg1.win 1).blk t).view.emb (ix2 p k)) = V c main_v26 (ix2 r k)
    refine congrArg _ (funext fun a => Fin.ext ?_)
    match a with
    | ⟨0, _⟩ => show win1_1.index t (0 : Fin 2) * 1000 + 1 * p.val = r.val; omega
    | ⟨1, _⟩ => show win1_1.index t (1 : Fin 2) * 1024 + 1 * k.val = k.val; omega
  · funext y
    show V c main_arg5 (((cfg1.win 2).blk t).view.emb y) = V c main_arg5 y
    refine congrArg _ (funext fun a => Fin.ext ?_)
    match a with
    | ⟨0, _⟩ => show win1_2.index t (0 : Fin 2) * 1024 + 1 * (y 0).val = (y 0).val; omega
    | ⟨1, _⟩ => show win1_2.index t (1 : Fin 2) * 512 + 1 * (y 1).val = (y 1).val; omega
  · funext y
    show V c main_arg7 (((cfg1.win 4).blk t).view.emb y) = V c main_arg7 y
    refine congrArg _ (funext fun a => Fin.ext ?_)
    match a with
    | ⟨0, _⟩ => show win1_4.index t (0 : Fin 2) * 1024 + 1 * (y 0).val = (y 0).val; omega
    | ⟨1, _⟩ => show win1_4.index t (1 : Fin 2) * 512 + 1 * (y 1).val = (y 1).val; omega
  · funext y
    show V c main_v39 (((cfg1.win 3).blk t).view.emb y) = V c main_v39 y
    refine congrArg _ (funext fun a => Fin.ext ?_)
    match a with
    | ⟨0, _⟩ => show win1_3.index t (0 : Fin 2) * 1 + 1 * (y 0).val = (y 0).val; omega
    | ⟨1, _⟩ => show win1_3.index t (1 : Fin 2) * 512 + 1 * (y 1).val = (y 1).val; omega
  · show win1_5.index t (0 : Fin 2) * 1000 + 1 * (j 0).val = t.val * 1000 + (j 0).val; omega
  · show win1_5.index t (1 : Fin 2) * 512 + 1 * (j 1).val = (j 1).val; omega

/-- An index of the result array is in point t's block iff each coordinate is in the block's range on its axis. -/
theorem mem_blk (t : Fin cfg1.N) (i : S20000x512.Idx) :
    i ∈ ((cfg1.win 5).blk t).view.set ↔ ∀ a : Fin 2, win1_5.index t a * S1000x512.size a ≤ (i a).val
      ∧ (i a).val < win1_5.index t a * S1000x512.size a + S1000x512.size a := by
  show i ∈ ((View.whole main_v40).slice (win1_5.rect t)).set ↔ _
  rw [View.set_slice_whole, Rect.mem_set_unit]
  exact Iff.rfl

/-- Every row of the result array lies in the block of the point its thousand names. -/
theorem cover (i : S20000x512.Idx) :
    ∃ t : Fin cfg1.N, (cfg1.win 5).flush t = true ∧ i ∈ ((cfg1.win 5).blk t).view.set := by
  have hi0 : (i 0).val < 20000 := (i 0).isLt
  have hi1 : (i 1).val < 512 := (i 1).isLt
  refine ⟨⟨(i 0).val / 1000, by show (i 0).val / 1000 < 20; omega⟩, flush1_5 _, ?_⟩
  obtain ⟨e00, e01, e10, e11, e20, e21, e30, e31, e40, e41, e50, e51⟩ := idx_facts ⟨(i 0).val / 1000, by show (i 0).val / 1000 < 20; omega⟩
  rw [mem_blk]
  intro a
  match a with
  | ⟨0, _⟩ =>
    show win1_5.index _ (0 : Fin 2) * 1000 ≤ (i 0).val ∧ (i 0).val < win1_5.index _ (0 : Fin 2) * 1000 + 1000
    rw [e50]; show (i 0).val / 1000 * 1000 ≤ (i 0).val ∧ (i 0).val < (i 0).val / 1000 * 1000 + 1000; omega
  | ⟨1, _⟩ =>
    show win1_5.index _ (1 : Fin 2) * 512 ≤ (i 1).val ∧ (i 1).val < win1_5.index _ (1 : Fin 2) * 512 + 512
    rw [e51]; omega

/-- The result array after the region: the layer of the arrays the region was entered with. -/
theorem final (c : Dev nD) : (dat1 V c).arrAt 5 cfg1.N = result V c :=
  (dat1 V c).arrAt_eq_of_cover 5 (result V c) (fun t _ => flushed_eq V c t) (cover)

end Cert.KernelIdeal.Region1

end
-- ==== Proof.Region2.lean ====
/-
  The third kernel region — the output layer 512 → 8 (no rectifier) — read as one function of whole arrays.
  The grid has twenty points; point t stages rows 1000·t … 1000·t + 999 of the neighbour means and of the node features,
  the two weight matrices and the bias row whole, and writes back rows 1000·t … of the result. The tile the body stores is,
  entry by entry, the layer's expression of the staged rows (two sums over the 512 contracted coordinates, the bias entry
  of the column), so what point t writes back is block t of the layer of the WHOLE arrays; the
  twenty blocks cover the 20000 rows, and the result array ends holding the layer of the arrays the region was entered with.
-/
import proofs.«103868_j47107201302764_1_alg».proof.Proof.Gen.KernelIdeal.Frame
import proofs.«103868_j47107201302764_1_alg».proof.Proof.LibGraphConv

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat)
open LibGraphConv

/-! ## The tile the body stores, entry by entry -/

/-- The body's arithmetic at a tile entry (p, q): format changes and casts to the same shape are the identity, each
    product into a zero accumulator is the sum over the contracted coordinate, the bias row is copied down the tile; no maximum follows. -/
theorem pay_apply (x0 x1 : Vec Ideal S1000x512 .f32) (x2 x4 : Vec Ideal S512x8 .f32) (x3 : Vec Ideal S1x8 .f32)
    (p : Fin 1000) (q : Fin 8) :
    k2_pay1 x0 x1 x2 x4 x3 (ix2 p q)
      = ((∑ k : Fin 512, x0 (ix2 p k) * x2 (ix2 k q)) + ∑ k : Fin 512, x1 (ix2 p k) * x4 (ix2 k q))
          + x3 (ix2 (0 : Fin 1) q) := by
  unfold k2_pay1
  simp only [shapeCast_self]
  exact tile_apply (φ₁ := .bf16) (φ₂ := .bf16) _ _ _ _ _ _ p q

/-- A tile entry against the whole arrays: when the staged rows are rows T·1000 + p of the arrays and the weights and the
    bias row are staged whole, entry j of the tile is the layer's entry at row T·1000 + j₀, column j₁. -/
theorem point_eq (x0 x1 : Vec Ideal S1000x512 .f32) (x2 x4 : Vec Ideal S512x8 .f32) (x3 : Vec Ideal S1x8 .f32)
    (A X : FVec Ideal S20000x512 .f32) (W W' : FVec Ideal S512x8 .f32) (b2 : FVec Ideal S1x8 .f32) (T : ℕ)
    (h0 : ∀ (p : Fin 1000) (k : Fin 512) (r : Fin 20000), r.val = T * 1000 + p.val → x0 (ix2 p k) = A (ix2 r k))
    (h1 : ∀ (p : Fin 1000) (k : Fin 512) (r : Fin 20000), r.val = T * 1000 + p.val → x1 (ix2 p k) = X (ix2 r k))
    (h2 : x2 = W) (h4 : x4 = W') (h3 : x3 = b2)
    (j : S1000x8.Idx) (i : S20000x8.Idx) (hi0 : (i 0).val = T * 1000 + (j 0).val) (hi1 : (i 1).val = (j 1).val) :
    k2_pay1 x0 x1 x2 x4 x3 j = layer false A X W (fun u => b2 (ix2 (0 : Fin 1) (u 0))) W' i := by
  subst h2 h4 h3
  obtain ⟨p, q, rfl⟩ : ∃ (p : Fin 1000) (q : Fin 8), j = ix2 p q := ⟨j 0, j 1, eq_ix2 j⟩
  obtain ⟨r, s, rfl⟩ : ∃ (r : Fin 20000) (s : Fin 8), i = ix2 r s := ⟨i 0, i 1, eq_ix2 i⟩
  have hs : s = q := Fin.ext hi1
  subst hs
  rw [pay_apply, layer_apply, if_neg Bool.false_ne_true]
  refine congrArg₂ (· + ·) (congrArg₂ (· + ·) ?_ ?_) rfl
  · exact Finset.sum_congr rfl fun k _ => by rw [h0 p k r hi0]
  · exact Finset.sum_congr rfl fun k _ => by rw [h1 p k r hi0]

/-! ## From the tiles to the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-tiled windows are at block (t, 0), the whole ones at block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The result of the layer on the arrays the region is entered with. -/
abbrev result (c : Dev nD) : FVec Ideal S20000x8 .f32 :=
  layer false (V c main_v52) (V c main_v40) (V c main_arg8) (fun u => V c main_v53 (ix2 (0 : Fin 1) (u 0))) (V c main_arg10)

/-- What point t writes back is block t of the layer of the whole arrays. -/
theorem flushed_eq (c : Dev nD) (t : Fin cfg2.N) :
    (dat2 V c).flushed 5 t = ((cfg2.win 5).blk t).view.read (Elt Ideal) (result V c) := by
  show (cfg2.win 5).cut (grid2.coords t) ((dat2 V c).after 5 t) = _
  rw [after2_5]
  unfold out2_5
  rw [View.canon_unit_zero hz]
  simp only [View.ld_unit_zero (S := S1000x512) hz, View.ld_unit_zero (S := S512x8) hz, View.ld_unit_zero (S := S1x8) hz]
  obtain ⟨e00, e01, e10, e11, e20, e21, e30, e31, e40, e41, e50, e51⟩ := idx_facts t
  funext j
  refine point_eq (iblk2 V c 0 t) (iblk2 V c 1 t) (iblk2 V c 2 t) (iblk2 V c 4 t) (iblk2 V c 3 t)
    (V c main_v52) (V c main_v40) (V c main_arg8) (V c main_arg10) (V c main_v53) t.val ?_ ?_ ?_ ?_ ?_ j
    (((cfg2.win 5).blk t).view.emb j) ?_ ?_
  · intro p k r hr
    show V c main_v52 (((cfg2.win 0).blk t).view.emb (ix2 p k)) = V c main_v52 (ix2 r k)
    refine congrArg _ (funext fun a => Fin.ext ?_)
    match a with
    | ⟨0, _⟩ => show win2_0.index t (0 : Fin 2) * 1000 + 1 * p.val = r.val; omega
    | ⟨1, _⟩ => show win2_0.index t (1 : Fin 2) * 512 + 1 * k.val = k.val; omega
  · intro p k r hr
    show V c main_v40 (((cfg2.win 1).blk t).view.emb (ix2 p k)) = V c main_v40 (ix2 r k)
    refine congrArg _ (funext fun a => Fin.ext ?_)
    match a with
    | ⟨0, _⟩ => show win2_1.index t (0 : Fin 2) * 1000 + 1 * p.val = r.val; omega
    | ⟨1, _⟩ => show win2_1.index t (1 : Fin 2) * 512 + 1 * k.val = k.val; omega
  · funext y
    show V c main_arg8 (((cfg2.win 2).blk t).view.emb y) = V c main_arg8 y
    refine congrArg _ (funext fun a => Fin.ext ?_)
    match a with
    | ⟨0, _⟩ => show win2_2.index t (0 : Fin 2) * 512 + 1 * (y 0).val = (y 0).val; omega
    | ⟨1, _⟩ => show win2_2.index t (1 : Fin 2) * 8 + 1 * (y 1).val = (y 1).val; omega
  · funext y
    show V c main_arg10 (((cfg2.win 4).blk t).view.emb y) = V c main_arg10 y
    refine congrArg _ (funext fun a => Fin.ext ?_)
    match a with
    | ⟨0, _⟩ => show win2_4.index t (0 : Fin 2) * 512 + 1 * (y 0).val = (y 0).val; omega
    | ⟨1, _⟩ => show win2_4.index t (1 : Fin 2) * 8 + 1 * (y 1).val = (y 1).val; omega
  · funext y
    show V c main_v53 (((cfg2.win 3).blk t).view.emb y) = V c main_v53 y
    refine congrArg _ (funext fun a => Fin.ext ?_)
    match a with
    | ⟨0, _⟩ => show win2_3.index t (0 : Fin 2) * 1 + 1 * (y 0).val = (y 0).val; omega
    | ⟨1, _⟩ => show win2_3.index t (1 : Fin 2) * 8 + 1 * (y 1).val = (y 1).val; omega
  · show win2_5.index t (0 : Fin 2) * 1000 + 1 * (j 0).val = t.val * 1000 + (j 0).val; omega
  · show win2_5.index t (1 : Fin 2) * 8 + 1 * (j 1).val = (j 1).val; omega

/-- An index of the result array is in point t's block iff each coordinate is in the block's range on its axis. -/
theorem mem_blk (t : Fin cfg2.N) (i : S20000x8.Idx) :
    i ∈ ((cfg2.win 5).blk t).view.set ↔ ∀ a : Fin 2, win2_5.index t a * S1000x8.size a ≤ (i a).val
      ∧ (i a).val < win2_5.index t a * S1000x8.size a + S1000x8.size a := by
  show i ∈ ((View.whole main_v54).slice (win2_5.rect t)).set ↔ _
  rw [View.set_slice_whole, Rect.mem_set_unit]
  exact Iff.rfl

/-- Every row of the result array lies in the block of the point its thousand names. -/
theorem cover (i : S20000x8.Idx) :
    ∃ t : Fin cfg2.N, (cfg2.win 5).flush t = true ∧ i ∈ ((cfg2.win 5).blk t).view.set := by
  have hi0 : (i 0).val < 20000 := (i 0).isLt
  have hi1 : (i 1).val < 8 := (i 1).isLt
  refine ⟨⟨(i 0).val / 1000, by show (i 0).val / 1000 < 20; omega⟩, flush2_5 _, ?_⟩
  obtain ⟨e00, e01, e10, e11, e20, e21, e30, e31, e40, e41, e50, e51⟩ := idx_facts ⟨(i 0).val / 1000, by show (i 0).val / 1000 < 20; omega⟩
  rw [mem_blk]
  intro a
  match a with
  | ⟨0, _⟩ =>
    show win2_5.index _ (0 : Fin 2) * 1000 ≤ (i 0).val ∧ (i 0).val < win2_5.index _ (0 : Fin 2) * 1000 + 1000
    rw [e50]; show (i 0).val / 1000 * 1000 ≤ (i 0).val ∧ (i 0).val < (i 0).val / 1000 * 1000 + 1000; omega
  | ⟨1, _⟩ =>
    show win2_5.index _ (1 : Fin 2) * 8 ≤ (i 1).val ∧ (i 1).val < win2_5.index _ (1 : Fin 2) * 8 + 8
    rw [e51]; omega

/-- The result array after the region: the layer of the arrays the region was entered with. -/
theorem final (c : Dev nD) : (dat2 V c).arrAt 5 cfg2.N = result V c :=
  (dat2 V c).arrAt_eq_of_cover 5 (result V c) (fun t _ => flushed_eq V c t) (cover)

end Cert.KernelIdeal.Region2

end
-- ==== Proof.Region3.lean ====
/-
  The fourth kernel region — the output layer 512 → 8 (no rectifier) — read as one function of whole arrays.
  The grid has twenty points; point t stages rows 1000·t … 1000·t + 999 of the neighbour means and of the node features,
  the two weight matrices and the bias row whole, and writes back rows 1000·t … of the result. The tile the body stores is,
  entry by entry, the layer's expression of the staged rows (two sums over the 512 contracted coordinates, the bias entry
  of the column), so what point t writes back is block t of the layer of the WHOLE arrays; the
  twenty blocks cover the 20000 rows, and the result array ends holding the layer of the arrays the region was entered with.
-/
import proofs.«103868_j47107201302764_1_alg».proof.Proof.Gen.KernelIdeal.Frame
import proofs.«103868_j47107201302764_1_alg».proof.Proof.LibGraphConv

set_option maxRecDepth 16384

noncomputable section

namespace Cert.KernelIdeal.Region3

open Cert.KernelIdeal Cert.KernelIdeal.Gen
open Idealize.ShloMosaic Idealize.ShloMosaic.TcCoe Idealize.ShloMosaic.ValueIdx Idealize.SL.Sem
open Idealize.ShloMosaic.Pipeline (Dat)
open LibGraphConv

/-! ## The tile the body stores, entry by entry -/

/-- The body's arithmetic at a tile entry (p, q): format changes and casts to the same shape are the identity, each
    product into a zero accumulator is the sum over the contracted coordinate, the bias row is copied down the tile; no maximum follows. -/
theorem pay_apply (x0 x1 : Vec Ideal S1000x512 .f32) (x2 x4 : Vec Ideal S512x8 .f32) (x3 : Vec Ideal S1x8 .f32)
    (p : Fin 1000) (q : Fin 8) :
    k3_pay1 x0 x1 x2 x4 x3 (ix2 p q)
      = ((∑ k : Fin 512, x0 (ix2 p k) * x2 (ix2 k q)) + ∑ k : Fin 512, x1 (ix2 p k) * x4 (ix2 k q))
          + x3 (ix2 (0 : Fin 1) q) := by
  unfold k3_pay1
  simp only [shapeCast_self]
  exact tile_apply (φ₁ := .bf16) (φ₂ := .bf16) _ _ _ _ _ _ p q

/-- A tile entry against the whole arrays: when the staged rows are rows T·1000 + p of the arrays and the weights and the
    bias row are staged whole, entry j of the tile is the layer's entry at row T·1000 + j₀, column j₁. -/
theorem point_eq (x0 x1 : Vec Ideal S1000x512 .f32) (x2 x4 : Vec Ideal S512x8 .f32) (x3 : Vec Ideal S1x8 .f32)
    (A X : FVec Ideal S20000x512 .f32) (W W' : FVec Ideal S512x8 .f32) (b2 : FVec Ideal S1x8 .f32) (T : ℕ)
    (h0 : ∀ (p : Fin 1000) (k : Fin 512) (r : Fin 20000), r.val = T * 1000 + p.val → x0 (ix2 p k) = A (ix2 r k))
    (h1 : ∀ (p : Fin 1000) (k : Fin 512) (r : Fin 20000), r.val = T * 1000 + p.val → x1 (ix2 p k) = X (ix2 r k))
    (h2 : x2 = W) (h4 : x4 = W') (h3 : x3 = b2)
    (j : S1000x8.Idx) (i : S20000x8.Idx) (hi0 : (i 0).val = T * 1000 + (j 0).val) (hi1 : (i 1).val = (j 1).val) :
    k3_pay1 x0 x1 x2 x4 x3 j = layer false A X W (fun u => b2 (ix2 (0 : Fin 1) (u 0))) W' i := by
  subst h2 h4 h3
  obtain ⟨p, q, rfl⟩ : ∃ (p : Fin 1000) (q : Fin 8), j = ix2 p q := ⟨j 0, j 1, eq_ix2 j⟩
  obtain ⟨r, s, rfl⟩ : ∃ (r : Fin 20000) (s : Fin 8), i = ix2 r s := ⟨i 0, i 1, eq_ix2 i⟩
  have hs : s = q := Fin.ext hi1
  subst hs
  rw [pay_apply, layer_apply, if_neg Bool.false_ne_true]
  refine congrArg₂ (· + ·) (congrArg₂ (· + ·) ?_ ?_) rfl
  · exact Finset.sum_congr rfl fun k _ => by rw [h0 p k r hi0]
  · exact Finset.sum_congr rfl fun k _ => by rw [h1 p k r hi0]

/-! ## From the tiles to the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-tiled windows are at block (t, 0), the whole ones at block (0, 0). -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- The result of the layer on the arrays the region is entered with. -/
abbrev result (c : Dev nD) : FVec Ideal S20000x8 .f32 :=
  layer false (V c main_v52) (V c main_v40) (V c main_arg11) (fun u => V c main_v55 (ix2 (0 : Fin 1) (u 0))) (V c main_arg13)

/-- What point t writes back is block t of the layer of the whole arrays. -/
theorem flushed_eq (c : Dev nD) (t : Fin cfg3.N) :
    (dat3 V c).flushed 5 t = ((cfg3.win 5).blk t).view.read (Elt Ideal) (result V c) := by
  show (cfg3.win 5).cut (grid3.coords t) ((dat3 V c).after 5 t) = _
  rw [after3_5]
  unfold out3_5
  rw [View.canon_unit_zero hz]
  simp only [View.ld_unit_zero (S := S1000x512) hz, View.ld_unit_zero (S := S512x8) hz, View.ld_unit_zero (S := S1x8) hz]
  obtain ⟨e00, e01, e10, e11, e20, e21, e30, e31, e40, e41, e50, e51⟩ := idx_facts t
  funext j
  refine point_eq (iblk3 V c 0 t) (iblk3 V c 1 t) (iblk3 V c 2 t) (iblk3 V c 4 t) (iblk3 V c 3 t)
    (V c main_v52) (V c main_v40) (V c main_arg11) (V c main_arg13) (V c main_v55) t.val ?_ ?_ ?_ ?_ ?_ j
    (((cfg3.win 5).blk t).view.emb j) ?_ ?_
  · intro p k r hr
    show V c main_v52 (((cfg3.win 0).blk t).view.emb (ix2 p k)) = V c main_v52 (ix2 r k)
    refine congrArg _ (funext fun a => Fin.ext ?_)
    match a with
    | ⟨0, _⟩ => show win3_0.index t (0 : Fin 2) * 1000 + 1 * p.val = r.val; omega
    | ⟨1, _⟩ => show win3_0.index t (1 : Fin 2) * 512 + 1 * k.val = k.val; omega
  · intro p k r hr
    show V c main_v40 (((cfg3.win 1).blk t).view.emb (ix2 p k)) = V c main_v40 (ix2 r k)
    refine congrArg _ (funext fun a => Fin.ext ?_)
    match a with
    | ⟨0, _⟩ => show win3_1.index t (0 : Fin 2) * 1000 + 1 * p.val = r.val; omega
    | ⟨1, _⟩ => show win3_1.index t (1 : Fin 2) * 512 + 1 * k.val = k.val; omega
  · funext y
    show V c main_arg11 (((cfg3.win 2).blk t).view.emb y) = V c main_arg11 y
    refine congrArg _ (funext fun a => Fin.ext ?_)
    match a with
    | ⟨0, _⟩ => show win3_2.index t (0 : Fin 2) * 512 + 1 * (y 0).val = (y 0).val; omega
    | ⟨1, _⟩ => show win3_2.index t (1 : Fin 2) * 8 + 1 * (y 1).val = (y 1).val; omega
  · funext y
    show V c main_arg13 (((cfg3.win 4).blk t).view.emb y) = V c main_arg13 y
    refine congrArg _ (funext fun a => Fin.ext ?_)
    match a with
    | ⟨0, _⟩ => show win3_4.index t (0 : Fin 2) * 512 + 1 * (y 0).val = (y 0).val; omega
    | ⟨1, _⟩ => show win3_4.index t (1 : Fin 2) * 8 + 1 * (y 1).val = (y 1).val; omega
  · funext y
    show V c main_v55 (((cfg3.win 3).blk t).view.emb y) = V c main_v55 y
    refine congrArg _ (funext fun a => Fin.ext ?_)
    match a with
    | ⟨0, _⟩ => show win3_3.index t (0 : Fin 2) * 1 + 1 * (y 0).val = (y 0).val; omega
    | ⟨1, _⟩ => show win3_3.index t (1 : Fin 2) * 8 + 1 * (y 1).val = (y 1).val; omega
  · show win3_5.index t (0 : Fin 2) * 1000 + 1 * (j 0).val = t.val * 1000 + (j 0).val; omega
  · show win3_5.index t (1 : Fin 2) * 8 + 1 * (j 1).val = (j 1).val; omega

/-- An index of the result array is in point t's block iff each coordinate is in the block's range on its axis. -/
theorem mem_blk (t : Fin cfg3.N) (i : S20000x8.Idx) :
    i ∈ ((cfg3.win 5).blk t).view.set ↔ ∀ a : Fin 2, win3_5.index t a * S1000x8.size a ≤ (i a).val
      ∧ (i a).val < win3_5.index t a * S1000x8.size a + S1000x8.size a := by
  show i ∈ ((View.whole main_v56).slice (win3_5.rect t)).set ↔ _
  rw [View.set_slice_whole, Rect.mem_set_unit]
  exact Iff.rfl

/-- Every row of the result array lies in the block of the point its thousand names. -/
theorem cover (i : S20000x8.Idx) :
    ∃ t : Fin cfg3.N, (cfg3.win 5).flush t = true ∧ i ∈ ((cfg3.win 5).blk t).view.set := by
  have hi0 : (i 0).val < 20000 := (i 0).isLt
  have hi1 : (i 1).val < 8 := (i 1).isLt
  refine ⟨⟨(i 0).val / 1000, by show (i 0).val / 1000 < 20; omega⟩, flush3_5 _, ?_⟩
  obtain ⟨e00, e01, e10, e11, e20, e21, e30, e31, e40, e41, e50, e51⟩ := idx_facts ⟨(i 0).val / 1000, by show (i 0).val / 1000 < 20; omega⟩
  rw [mem_blk]
  intro a
  match a with
  | ⟨0, _⟩ =>
    show win3_5.index _ (0 : Fin 2) * 1000 ≤ (i 0).val ∧ (i 0).val < win3_5.index _ (0 : Fin 2) * 1000 + 1000
    rw [e50]; show (i 0).val / 1000 * 1000 ≤ (i 0).val ∧ (i 0).val < (i 0).val / 1000 * 1000 + 1000; omega
  | ⟨1, _⟩ =>
    show win3_5.index _ (1 : Fin 2) * 8 ≤ (i 1).val ∧ (i 1).val < win3_5.index _ (1 : Fin 2) * 8 + 8
    rw [e51]; omega

/-- The result array after the region: the layer of the arrays the region was entered with. -/
theorem final (c : Dev nD) : (dat3 V c).arrAt 5 cfg3.N = result V c :=
  (dat3 V c).arrAt_eq_of_cover 5 (result V c) (fun t _ => flushed_eq V c t) (cover)

end Cert.KernelIdeal.Region3

end
-- ==== Proof.KernelValue.lean ====
/-
  What the kernel program's buffers hold at each boundary of @main, folded from the launch memory.

  A stretch of host operations rewrites the buffers it writes and keeps the rest; a kernel region leaves its result array
  at the layer of the arrays it was entered with (the regions' modules), its input arrays and every other buffer as they
  were. Nothing ever writes an argument array, the index vectors or the degree column once they are computed. Walking
  these facts through the eight segments gives, at the last boundary, the two result arrays as the four layers composed
  (`h1`, `h2`, and `out` at each output layer's weights) of the argument arrays; the run then ends with them there.
-/
import proofs.«103868_j47107201302764_1_alg».proof.Proof.Gen.KernelIdeal.Frame
import proofs.«103868_j47107201302764_1_alg».proof.Proof.KernelNet
import proofs.«103868_j47107201302764_1_alg».proof.Proof.Region0
import proofs.«103868_j47107201302764_1_alg».proof.Proof.Region1
import proofs.«103868_j47107201302764_1_alg».proof.Proof.Region2
import proofs.«103868_j47107201302764_1_alg».proof.Proof.Region3
import proofs.«103868_j47107201302764_1_alg».proof.Proof.KernelRun

set_option maxRecDepth 16384

noncomputable section

namespace Cert.KernelIdeal.Net

open Cert.KernelIdeal Cert.KernelIdeal.Gen
open Idealize.ShloMosaic Idealize.ShloMosaic.TcCoe Idealize.ShloMosaic.ValueIdx Idealize.SL.Sem Idealize.ShloMosaic.StableHlo
open LibGraphConv

variable (m : (ℓ : Loc nD τ sig) → Buf (Elt Ideal) ℓ) (ρ : Dev nD → PrngReg)

/-- No operation of a literal stretch writes the given reference: the stretch's result references, one by one. -/
macro "keeps" ops:ident : tactic => `(tactic| (
  refine List.forall_iff_forall_mem.mp ?_
  simp only [$ops:ident, List.Forall, StableHlo.nullary_writes, StableHlo.unary_writes, StableHlo.binary_writes,
    StableHlo.ternary_writes, StableHlo.quaternary_writes, StableHlo.reshape_writes, StableHlo.binaryIndexed_writes, Finset.mem_singleton]
  repeat' apply And.intro
  all_goals exact StableHlo.devRef_ne_of_ne (by decide)))

/-! ## A buffer nothing writes, boundary by boundary -/

section Kept
variable (c : Dev nD) (b : Ref sig .tc)

theorem step1 (k0 : ∀ op ∈ (hostOps0 : List (HloOp τ sig (Elt Ideal))), Proc.devRef (τ := τ) .tc b ∉ op.writes) : W1 m ρ c (Proc.devRef .tc b) = W0 m ρ c (Proc.devRef .tc b) := StableHlo.after_of_forall_not_mem _ _ k0
theorem step3 (k1 : ∀ op ∈ (hostOps1 : List (HloOp τ sig (Elt Ideal))), Proc.devRef (τ := τ) .tc b ∉ op.writes) : W3 m ρ c (Proc.devRef .tc b) = W2 m ρ c (Proc.devRef .tc b) := StableHlo.after_of_forall_not_mem _ _ k1
theorem step5 (k2 : ∀ op ∈ (hostOps2 : List (HloOp τ sig (Elt Ideal))), Proc.devRef (τ := τ) .tc b ∉ op.writes) : W5 m ρ c (Proc.devRef .tc b) = W4 m ρ c (Proc.devRef .tc b) := StableHlo.after_of_forall_not_mem _ _ k2
theorem step7 (k3 : ∀ op ∈ (hostOps3 : List (HloOp τ sig (Elt Ideal))), Proc.devRef (τ := τ) .tc b ∉ op.writes) : W7 m ρ c (Proc.devRef .tc b) = W6 m ρ c (Proc.devRef .tc b) := StableHlo.after_of_forall_not_mem _ _ k3

theorem at1 (k0 : ∀ op ∈ (hostOps0 : List (HloOp τ sig (Elt Ideal))), Proc.devRef (τ := τ) .tc b ∉ op.writes) : W1 m ρ c (Proc.devRef .tc b) = m ((c : Thread nD τ).loc b) := step1 m ρ c b k0
theorem at2 (k0 : ∀ op ∈ (hostOps0 : List (HloOp τ sig (Elt Ideal))), Proc.devRef (τ := τ) .tc b ∉ op.writes) (n0 : ∀ w, Pipeline.arrRef spec0 w ≠ b) : W2 m ρ c (Proc.devRef .tc b) = m ((c : Thread nD τ).loc b) :=
  (W2_of_ne m ρ c b n0).trans (at1 m ρ c b k0)
theorem at3 (k0 : ∀ op ∈ (hostOps0 : List (HloOp τ sig (Elt Ideal))), Proc.devRef (τ := τ) .tc b ∉ op.writes) (n0 : ∀ w, Pipeline.arrRef spec0 w ≠ b) (k1 : ∀ op ∈ (hostOps1 : List (HloOp τ sig (Elt Ideal))), Proc.devRef (τ := τ) .tc b ∉ op.writes) : W3 m ρ c (Proc.devRef .tc b) = m ((c : Thread nD τ).loc b) :=
  (step3 m ρ c b k1).trans (at2 m ρ c b k0 n0)
theorem at4 (k0 : ∀ op ∈ (hostOps0 : List (HloOp τ sig (Elt Ideal))), Proc.devRef (τ := τ) .tc b ∉ op.writes) (n0 : ∀ w, Pipeline.arrRef spec0 w ≠ b) (k1 : ∀ op ∈ (hostOps1 : List (HloOp τ sig (Elt Ideal))), Proc.devRef (τ := τ) .tc b ∉ op.writes) (n1 : ∀ w, Pipeline.arrRef spec1 w ≠ b) : W4 m ρ c (Proc.devRef .tc b) = m ((c : Thread nD τ).loc b) :=
  (W4_of_ne m ρ c b n1).trans (at3 m ρ c b k0 n0 k1)
theorem at5 (k0 : ∀ op ∈ (hostOps0 : List (HloOp τ sig (Elt Ideal))), Proc.devRef (τ := τ) .tc b ∉ op.writes) (n0 : ∀ w, Pipeline.arrRef spec0 w ≠ b) (k1 : ∀ op ∈ (hostOps1 : List (HloOp τ sig (Elt Ideal))), Proc.devRef (τ := τ) .tc b ∉ op.writes) (n1 : ∀ w, Pipeline.arrRef spec1 w ≠ b) (k2 : ∀ op ∈ (hostOps2 : List (HloOp τ sig (Elt Ideal))), Proc.devRef (τ := τ) .tc b ∉ op.writes) : W5 m ρ c (Proc.devRef .tc b) = m ((c : Thread nD τ).loc b) :=
  (step5 m ρ c b k2).trans (at4 m ρ c b k0 n0 k1 n1)
theorem at6 (k0 : ∀ op ∈ (hostOps0 : List (HloOp τ sig (Elt Ideal))), Proc.devRef (τ := τ) .tc b ∉ op.writes) (n0 : ∀ w, Pipeline.arrRef spec0 w ≠ b) (k1 : ∀ op ∈ (hostOps1 : List (HloOp τ sig (Elt Ideal))), Proc.devRef (τ := τ) .tc b ∉ op.writes) (n1 : ∀ w, Pipeline.arrRef spec1 w ≠ b) (k2 : ∀ op ∈ (hostOps2 : List (HloOp τ sig (Elt Ideal))), Proc.devRef (τ := τ) .tc b ∉ op.writes) (n2 : ∀ w, Pipeline.arrRef spec2 w ≠ b) : W6 m ρ c (Proc.devRef .tc b) = m ((c : Thread nD τ).loc b) :=
  (W6_of_ne m ρ c b n2).trans (at5 m ρ c b k0 n0 k1 n1 k2)
theorem at7 (k0 : ∀ op ∈ (hostOps0 : List (HloOp τ sig (Elt Ideal))), Proc.devRef (τ := τ) .tc b ∉ op.writes) (n0 : ∀ w, Pipeline.arrRef spec0 w ≠ b) (k1 : ∀ op ∈ (hostOps1 : List (HloOp τ sig (Elt Ideal))), Proc.devRef (τ := τ) .tc b ∉ op.writes) (n1 : ∀ w, Pipeline.arrRef spec1 w ≠ b) (k2 : ∀ op ∈ (hostOps2 : List (HloOp τ sig (Elt Ideal))), Proc.devRef (τ := τ) .tc b ∉ op.writes) (n2 : ∀ w, Pipeline.arrRef spec2 w ≠ b) (k3 : ∀ op ∈ (hostOps3 : List (HloOp τ sig (Elt Ideal))), Proc.devRef (τ := τ) .tc b ∉ op.writes) : W7 m ρ c (Proc.devRef .tc b) = m ((c : Thread nD τ).loc b) :=
  (step7 m ρ c b k3).trans (at6 m ρ c b k0 n0 k1 n1 k2 n2)

end Kept

variable (c : Dev nD)

/-! ## Before the first region -/

theorem W1_arg0 : W1 m ρ c (Proc.devRef .tc main_arg0) = m ((c : Thread nD τ).loc main_arg0) := at1 m ρ c main_arg0 (by keeps hostOps0)
theorem W1_arg2 : W1 m ρ c (Proc.devRef .tc main_arg2) = m ((c : Thread nD τ).loc main_arg2) := at1 m ρ c main_arg2 (by keeps hostOps0)
theorem W1_arg4 : W1 m ρ c (Proc.devRef .tc main_arg4) = m ((c : Thread nD τ).loc main_arg4) := at1 m ρ c main_arg4 (by keeps hostOps0)

set_option maxHeartbeats 4000000 in
theorem W1_v1 : W1 m ρ c (Proc.devRef .tc main_v1) = src (m ((c : Thread nD τ).loc main_arg1)) := by
  show StableHlo.after hostOps0 (W0 m ρ c) (Proc.devRef .tc main_v1) = _
  after_results_simp
  rfl
set_option maxHeartbeats 4000000 in
theorem W1_v3 : W1 m ρ c (Proc.devRef .tc main_v3) = dst (m ((c : Thread nD τ).loc main_arg1)) := by
  show StableHlo.after hostOps0 (W0 m ρ c) (Proc.devRef .tc main_v3) = _
  after_results_simp
  rfl
set_option maxHeartbeats 4000000 in
theorem W1_v12 : W1 m ρ c (Proc.devRef .tc main_v12) = dinv (F := Ideal) (dst (m ((c : Thread nD τ).loc main_arg1))) := by
  show StableHlo.after hostOps0 (W0 m ρ c) (Proc.devRef .tc main_v12) = _
  after_results_simp
  rfl
set_option maxHeartbeats 4000000 in
theorem W1_v24 : W1 m ρ c (Proc.devRef .tc main_v24) = mean128 (F := Ideal) (src (m ((c : Thread nD τ).loc main_arg1))) (dst (m ((c : Thread nD τ).loc main_arg1))) (dinv (F := Ideal) (dst (m ((c : Thread nD τ).loc main_arg1)))) (m ((c : Thread nD τ).loc main_arg0)) := by
  show StableHlo.after hostOps0 (W0 m ρ c) (Proc.devRef .tc main_v24) = _
  after_results_simp
  rfl
set_option maxHeartbeats 4000000 in
theorem W1_v25 : W1 m ρ c (Proc.devRef .tc main_v25) = shapeCast S1x1024 (m ((c : Thread nD τ).loc main_arg3)) shapeCasts_S1024_S1x1024 := by
  show StableHlo.after hostOps0 (W0 m ρ c) (Proc.devRef .tc main_v25) = _
  after_results_simp
  rfl

/-! ## The first region, and the stretch after it -/

/-- The first hidden layer of the arguments. -/
abbrev H1 : FVec Ideal S20000x1024 .f32 :=
  h1 (m ((c : Thread nD τ).loc main_arg0)) (m ((c : Thread nD τ).loc main_arg1)) (m ((c : Thread nD τ).loc main_arg2)) (m ((c : Thread nD τ).loc main_arg3)) (m ((c : Thread nD τ).loc main_arg4))

theorem W2_v26 : W2 m ρ c (Proc.devRef .tc main_v26) = H1 m c := by
  refine ((W2_arr m ρ c 5).trans (Region0.final (V1 m ρ) c)).trans ?_
  show layer true (W1 m ρ c (Proc.devRef .tc main_v24)) (W1 m ρ c (Proc.devRef .tc main_arg0)) (W1 m ρ c (Proc.devRef .tc main_arg2))
    (fun u => W1 m ρ c (Proc.devRef .tc main_v25) (ix2 (0 : Fin 1) (u 0))) (W1 m ρ c (Proc.devRef .tc main_arg4)) = _
  rw [W1_v24, W1_arg0, W1_arg2, W1_arg4, W1_v25, row_of_cast]
  rfl

theorem W2_v1 : W2 m ρ c (Proc.devRef .tc main_v1) = src (m ((c : Thread nD τ).loc main_arg1)) := (W2_of_ne m ρ c main_v1 (by decide)).trans (W1_v1 m ρ c)
theorem W2_v3 : W2 m ρ c (Proc.devRef .tc main_v3) = dst (m ((c : Thread nD τ).loc main_arg1)) := (W2_of_ne m ρ c main_v3 (by decide)).trans (W1_v3 m ρ c)
theorem W2_v12 : W2 m ρ c (Proc.devRef .tc main_v12) = dinv (F := Ideal) (dst (m ((c : Thread nD τ).loc main_arg1))) := (W2_of_ne m ρ c main_v12 (by decide)).trans (W1_v12 m ρ c)
theorem W2_arg6 : W2 m ρ c (Proc.devRef .tc main_arg6) = m ((c : Thread nD τ).loc main_arg6) := at2 m ρ c main_arg6 (by keeps hostOps0) (by decide)

set_option maxHeartbeats 4000000 in
theorem W3_v38 : W3 m ρ c (Proc.devRef .tc main_v38) = mean1024 (F := Ideal) (src (m ((c : Thread nD τ).loc main_arg1))) (dst (m ((c : Thread nD τ).loc main_arg1))) (dinv (F := Ideal) (dst (m ((c : Thread nD τ).loc main_arg1)))) (H1 m c) := by
  show StableHlo.after hostOps1 (W2 m ρ c) (Proc.devRef .tc main_v38) = _
  after_results_simp
  rw [W2_v1, W2_v3, W2_v12, W2_v26]
  rfl
set_option maxHeartbeats 4000000 in
theorem W3_v39 : W3 m ρ c (Proc.devRef .tc main_v39) = shapeCast S1x512 (m ((c : Thread nD τ).loc main_arg6)) shapeCasts_S512_S1x512 := by
  show StableHlo.after hostOps1 (W2 m ρ c) (Proc.devRef .tc main_v39) = _
  after_results_simp
  rw [W2_arg6]
  rfl
theorem W3_v26 : W3 m ρ c (Proc.devRef .tc main_v26) = H1 m c := (step3 m ρ c main_v26 (by keeps hostOps1)).trans (W2_v26 m ρ c)
theorem W3_arg5 : W3 m ρ c (Proc.devRef .tc main_arg5) = m ((c : Thread nD τ).loc main_arg5) := at3 m ρ c main_arg5 (by keeps hostOps0) (by decide) (by keeps hostOps1)
theorem W3_arg7 : W3 m ρ c (Proc.devRef .tc main_arg7) = m ((c : Thread nD τ).loc main_arg7) := at3 m ρ c main_arg7 (by keeps hostOps0) (by decide) (by keeps hostOps1)

/-! ## The second region, and the stretch after it -/

/-- The second hidden layer of the arguments. -/
abbrev H2 : FVec Ideal S20000x512 .f32 :=
  h2 (m ((c : Thread nD τ).loc main_arg0)) (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))

theorem W4_v40 : W4 m ρ c (Proc.devRef .tc main_v40) = H2 m c := by
  refine ((W4_arr m ρ c 5).trans (Region1.final (V3 m ρ) c)).trans ?_
  show layer true (W3 m ρ c (Proc.devRef .tc main_v38)) (W3 m ρ c (Proc.devRef .tc main_v26)) (W3 m ρ c (Proc.devRef .tc main_arg5))
    (fun u => W3 m ρ c (Proc.devRef .tc main_v39) (ix2 (0 : Fin 1) (u 0))) (W3 m ρ c (Proc.devRef .tc main_arg7)) = _
  rw [W3_v38, W3_v26, W3_arg5, W3_arg7, W3_v39, row_of_cast]
  rfl

theorem W4_v1 : W4 m ρ c (Proc.devRef .tc main_v1) = src (m ((c : Thread nD τ).loc main_arg1)) :=
  (W4_of_ne m ρ c main_v1 (by decide)).trans ((step3 m ρ c main_v1 (by keeps hostOps1)).trans (W2_v1 m ρ c))
theorem W4_v3 : W4 m ρ c (Proc.devRef .tc main_v3) = dst (m ((c : Thread nD τ).loc main_arg1)) :=
  (W4_of_ne m ρ c main_v3 (by decide)).trans ((step3 m ρ c main_v3 (by keeps hostOps1)).trans (W2_v3 m ρ c))
theorem W4_v12 : W4 m ρ c (Proc.devRef .tc main_v12) = dinv (F := Ideal) (dst (m ((c : Thread nD τ).loc main_arg1))) :=
  (W4_of_ne m ρ c main_v12 (by decide)).trans ((step3 m ρ c main_v12 (by keeps hostOps1)).trans (W2_v12 m ρ c))
theorem W4_arg9 : W4 m ρ c (Proc.devRef .tc main_arg9) = m ((c : Thread nD τ).loc main_arg9) :=
  at4 m ρ c main_arg9 (by keeps hostOps0) (by decide) (by keeps hostOps1) (by decide)

set_option maxHeartbeats 4000000 in
theorem W5_v52 : W5 m ρ c (Proc.devRef .tc main_v52) = mean512 (F := Ideal) (src (m ((c : Thread nD τ).loc main_arg1))) (dst (m ((c : Thread nD τ).loc main_arg1))) (dinv (F := Ideal) (dst (m ((c : Thread nD τ).loc main_arg1)))) (H2 m c) := by
  show StableHlo.after hostOps2 (W4 m ρ c) (Proc.devRef .tc main_v52) = _
  after_results_simp
  rw [W4_v1, W4_v3, W4_v12, W4_v40]
  rfl
set_option maxHeartbeats 4000000 in
theorem W5_v53 : W5 m ρ c (Proc.devRef .tc main_v53) = shapeCast S1x8 (m ((c : Thread nD τ).loc main_arg9)) shapeCasts_S8_S1x8 := by
  show StableHlo.after hostOps2 (W4 m ρ c) (Proc.devRef .tc main_v53) = _
  after_results_simp
  rw [W4_arg9]
  rfl
theorem W5_v40 : W5 m ρ c (Proc.devRef .tc main_v40) = H2 m c := (step5 m ρ c main_v40 (by keeps hostOps2)).trans (W4_v40 m ρ c)
theorem W5_arg8 : W5 m ρ c (Proc.devRef .tc main_arg8) = m ((c : Thread nD τ).loc main_arg8) :=
  at5 m ρ c main_arg8 (by keeps hostOps0) (by decide) (by keeps hostOps1) (by decide) (by keeps hostOps2)
theorem W5_arg10 : W5 m ρ c (Proc.devRef .tc main_arg10) = m ((c : Thread nD τ).loc main_arg10) :=
  at5 m ρ c main_arg10 (by keeps hostOps0) (by decide) (by keeps hostOps1) (by decide) (by keeps hostOps2)

/-! ## The two output regions -/

/-- The first result: the output layer at the mean head's weights. -/
abbrev MU : FVec Ideal S20000x8 .f32 :=
  out (m ((c : Thread nD τ).loc main_arg0)) (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
/-- The second result: the output layer at the log-standard-deviation head's weights. -/
abbrev LS : FVec Ideal S20000x8 .f32 :=
  out (m ((c : Thread nD τ).loc main_arg0)) (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) (m ((c : Thread nD τ).loc main_arg11)) (m ((c : Thread nD τ).loc main_arg12)) (m ((c : Thread nD τ).loc main_arg13))

theorem W6_v54 : W6 m ρ c (Proc.devRef .tc main_v54) = MU m c := by
  refine ((W6_arr m ρ c 5).trans (Region2.final (V5 m ρ) c)).trans ?_
  show layer false (W5 m ρ c (Proc.devRef .tc main_v52)) (W5 m ρ c (Proc.devRef .tc main_v40)) (W5 m ρ c (Proc.devRef .tc main_arg8))
    (fun u => W5 m ρ c (Proc.devRef .tc main_v53) (ix2 (0 : Fin 1) (u 0))) (W5 m ρ c (Proc.devRef .tc main_arg10)) = _
  rw [W5_v52, W5_v40, W5_arg8, W5_arg10, W5_v53, row_of_cast]
  rfl

/-- An input array of the third region is as the region found it. -/
theorem W6_v52 : W6 m ρ c (Proc.devRef .tc main_v52) = mean512 (F := Ideal) (src (m ((c : Thread nD τ).loc main_arg1))) (dst (m ((c : Thread nD τ).loc main_arg1))) (dinv (F := Ideal) (dst (m ((c : Thread nD τ).loc main_arg1)))) (H2 m c) :=
  ((W6_arr m ρ c 0).trans (((dat2 (V5 m ρ) c).arrAt_in 0 rfl _).trans (A_eq2 (V5 m ρ) c 0))).trans (W5_v52 m ρ c)
theorem W6_v40 : W6 m ρ c (Proc.devRef .tc main_v40) = H2 m c :=
  ((W6_arr m ρ c 1).trans (((dat2 (V5 m ρ) c).arrAt_in 1 rfl _).trans (A_eq2 (V5 m ρ) c 1))).trans (W5_v40 m ρ c)
theorem W6_arg12 : W6 m ρ c (Proc.devRef .tc main_arg12) = m ((c : Thread nD τ).loc main_arg12) :=
  at6 m ρ c main_arg12 (by keeps hostOps0) (by decide) (by keeps hostOps1) (by decide) (by keeps hostOps2) (by decide)

theorem W7_v52 : W7 m ρ c (Proc.devRef .tc main_v52) = mean512 (F := Ideal) (src (m ((c : Thread nD τ).loc main_arg1))) (dst (m ((c : Thread nD τ).loc main_arg1))) (dinv (F := Ideal) (dst (m ((c : Thread nD τ).loc main_arg1)))) (H2 m c) :=
  (step7 m ρ c main_v52 (by keeps hostOps3)).trans (W6_v52 m ρ c)
theorem W7_v40 : W7 m ρ c (Proc.devRef .tc main_v40) = H2 m c := (step7 m ρ c main_v40 (by keeps hostOps3)).trans (W6_v40 m ρ c)
theorem W7_v54 : W7 m ρ c (Proc.devRef .tc main_v54) = MU m c := (step7 m ρ c main_v54 (by keeps hostOps3)).trans (W6_v54 m ρ c)
theorem W7_v55 : W7 m ρ c (Proc.devRef .tc main_v55) = shapeCast S1x8 (m ((c : Thread nD τ).loc main_arg12)) shapeCasts_S8_S1x8 := by
  show StableHlo.after hostOps3 (W6 m ρ c) (Proc.devRef .tc main_v55) = _
  after_results_simp
  rw [W6_arg12]
  rfl
theorem W7_arg11 : W7 m ρ c (Proc.devRef .tc main_arg11) = m ((c : Thread nD τ).loc main_arg11) :=
  at7 m ρ c main_arg11 (by keeps hostOps0) (by decide) (by keeps hostOps1) (by decide) (by keeps hostOps2) (by decide) (by keeps hostOps3)
theorem W7_arg13 : W7 m ρ c (Proc.devRef .tc main_arg13) = m ((c : Thread nD τ).loc main_arg13) :=
  at7 m ρ c main_arg13 (by keeps hostOps0) (by decide) (by keeps hostOps1) (by decide) (by keeps hostOps2) (by decide) (by keeps hostOps3)

theorem W8_v56 : W8 m ρ c (Proc.devRef .tc main_v56) = LS m c := by
  refine ((W8_arr m ρ c 5).trans (Region3.final (V7 m ρ) c)).trans ?_
  show layer false (W7 m ρ c (Proc.devRef .tc main_v52)) (W7 m ρ c (Proc.devRef .tc main_v40)) (W7 m ρ c (Proc.devRef .tc main_arg11))
    (fun u => W7 m ρ c (Proc.devRef .tc main_v55) (ix2 (0 : Fin 1) (u 0))) (W7 m ρ c (Proc.devRef .tc main_arg13)) = _
  rw [W7_v52, W7_v40, W7_arg11, W7_arg13, W7_v55, row_of_cast]
  rfl

theorem W8_v54 : W8 m ρ c (Proc.devRef .tc main_v54) = MU m c := (W8_of_ne m ρ c main_v54 (by decide)).trans (W7_v54 m ρ c)

/-! ## The run -/

/-- Every weakly fair execution of the kernel program terminates with the two result arrays at the network of the
    arguments, and the arguments as launched. -/
theorem run : θ_run defs (onTc (τ := τ) (main (F := Ideal))) ⟨m, fun _ => 0, ρ⟩ (fun r => ∀ c : Dev nD,
      r.2.mem ((c.tc : Thread nD τ).loc main_v54) = MU m c
      ∧ r.2.mem ((c.tc : Thread nD τ).loc main_v56) = LS m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c).1.trans (W8_v54 m ρ c), (h c).2.1.trans (W8_v56 m ρ c), (h c).2.2⟩)
    (Cert.KernelIdeal.Named.run_named (F := Ideal) m ρ)

end Cert.KernelIdeal.Net

end
-- ==== Proof.RefValue.lean ====
/-
  The reference program's two results are the kernel program's network of the same arguments.

  The reference computes each layer on the host: the neighbour mean as the sums DIVIDED by the column max(deg, 1), then
  (mean·W + b) + X·W', then (for the hidden layers) the maximum with zero. The kernel program multiplies the sums by the
  column 1 / max(deg, 1) and adds the two products before the bias. Stage by stage the two are one function:
  the divisor max(deg, 1) is at least one, so the quotient is the product with the reciprocal; the layer differs only in
  the order of two additions of extended reals; the gather and the scatter-add are the same operations on both sides and
  are never opened. Each stage's equality feeds the next, because a layer's output is the next layer's features.
-/
import proofs.«103868_j47107201302764_1_alg».proof.Proof.Gen.ReferenceIdeal.Run
import proofs.«103868_j47107201302764_1_alg».proof.Proof.Gen.ReferenceIdeal.Read
import proofs.«103868_j47107201302764_1_alg».proof.Proof.KernelNet
import proofs.«103868_j47107201302764_1_alg».proof.Proof.LibGraphConv

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem
open LibGraphConv

variable (x0 : FVec Ideal S20000x128 .f32) (x1 : IVec S2x160000 32)
  (x2 : FVec Ideal S128x1024 .f32) (x3 : FVec Ideal S1024 .f32) (x4 : FVec Ideal S128x1024 .f32)
  (x5 : FVec Ideal S1024x512 .f32) (x6 : FVec Ideal S512 .f32) (x7 : FVec Ideal S1024x512 .f32)

/-! ## The first hidden layer -/

/-- The reference's neighbour mean of the input features (sums divided by max(deg, 1)) is the kernel program's (sums
    times 1 / max(deg, 1)). -/
theorem mean128_eq : val_main_v22 (F := Ideal) x0 x1
    = Cert.KernelIdeal.Net.mean128 (F := Ideal) (Cert.KernelIdeal.Net.src x1) (Cert.KernelIdeal.Net.dst x1) (Cert.KernelIdeal.Net.dinv (F := Ideal) (Cert.KernelIdeal.Net.dst x1)) x0 :=
  (mean_mul_eq_div (n := 20000) (K := 128) (Cert.KernelIdeal.Net.sum128 (F := Ideal) (Cert.KernelIdeal.Net.src x1) (Cert.KernelIdeal.Net.dst x1) x0) (Cert.KernelIdeal.Net.deg (F := Ideal) (Cert.KernelIdeal.Net.dst x1))
    Cert.KernelIdeal.Gen.bcast_S_S20000 Cert.KernelIdeal.Gen.bcast_S20000_S20000x1_0 Cert.KernelIdeal.Gen.bcast_S20000x1_S20000x128_0_1).symm

/-- The reference's first hidden layer is the kernel program's. -/
theorem h1_eq : val_main_v29 (F := Ideal) x0 x1 x2 x3 x4 = Cert.KernelIdeal.Net.h1 x0 x1 x2 x3 x4 :=
  (host_layer_relu_eq (M := 20000) (K := 128) (N := 1024) (val_main_v22 (F := Ideal) x0 x1) x0 x2 x4 x3
      bcast_S1024_S1x1024_1 bcast_S1x1024_S20000x1024_0_1 bcast_S_S20000x1024).trans
    (congrArg (fun A => layer true A x0 x2 x3 x4) (mean128_eq x0 x1))

/-! ## The second hidden layer -/

/-- The neighbour mean of any 1024-column features: quotient by the column, or product with the reciprocal column. -/
theorem mean1024_eq (H) :
    Host.divf (Cert.KernelIdeal.Net.sum1024 (F := Ideal) (Cert.KernelIdeal.Net.src x1) (Cert.KernelIdeal.Net.dst x1) H) (val_main_v47 (F := Ideal) x1)
      = Cert.KernelIdeal.Net.mean1024 (F := Ideal) (Cert.KernelIdeal.Net.src x1) (Cert.KernelIdeal.Net.dst x1) (Cert.KernelIdeal.Net.dinv (F := Ideal) (Cert.KernelIdeal.Net.dst x1)) H :=
  (mean_mul_eq_div (n := 20000) (K := 1024) (Cert.KernelIdeal.Net.sum1024 (F := Ideal) (Cert.KernelIdeal.Net.src x1) (Cert.KernelIdeal.Net.dst x1) H) (Cert.KernelIdeal.Net.deg (F := Ideal) (Cert.KernelIdeal.Net.dst x1))
    Cert.KernelIdeal.Gen.bcast_S_S20000 Cert.KernelIdeal.Gen.bcast_S20000_S20000x1_0 Cert.KernelIdeal.Gen.bcast_S20000x1_S20000x1024_0_1).symm

/-- The reference's neighbour mean of its first hidden layer, over the kernel program's first hidden layer. -/
theorem v48_eq : val_main_v48 (F := Ideal) x0 x1 x2 x3 x4
    = Cert.KernelIdeal.Net.mean1024 (F := Ideal) (Cert.KernelIdeal.Net.src x1) (Cert.KernelIdeal.Net.dst x1) (Cert.KernelIdeal.Net.dinv (F := Ideal) (Cert.KernelIdeal.Net.dst x1)) (Cert.KernelIdeal.Net.h1 x0 x1 x2 x3 x4) :=
  (show val_main_v48 (F := Ideal) x0 x1 x2 x3 x4
      = Host.divf (Cert.KernelIdeal.Net.sum1024 (F := Ideal) (Cert.KernelIdeal.Net.src x1) (Cert.KernelIdeal.Net.dst x1) (val_main_v29 (F := Ideal) x0 x1 x2 x3 x4)) (val_main_v47 (F := Ideal) x1) from rfl).trans
    ((congrArg (fun H => Host.divf (Cert.KernelIdeal.Net.sum1024 (F := Ideal) (Cert.KernelIdeal.Net.src x1) (Cert.KernelIdeal.Net.dst x1) H) (val_main_v47 (F := Ideal) x1)) (h1_eq x0 x1 x2 x3 x4)).trans
      (mean1024_eq x1 _))

/-- The reference's second hidden layer is the kernel program's. -/
theorem h2_eq : val_main_v55 (F := Ideal) x0 x1 x2 x3 x4 x5 x6 x7 = Cert.KernelIdeal.Net.h2 x0 x1 x2 x3 x4 x5 x6 x7 :=
  (host_layer_relu_eq (M := 20000) (K := 1024) (N := 512) (val_main_v48 (F := Ideal) x0 x1 x2 x3 x4)
      (val_main_v29 (F := Ideal) x0 x1 x2 x3 x4) x5 x7 x6
      bcast_S512_S1x512_1 bcast_S1x512_S20000x512_0_1 bcast_S_S20000x512).trans
    ((congrArg (fun A => layer true A (val_main_v29 (F := Ideal) x0 x1 x2 x3 x4) x5 x6 x7) (v48_eq x0 x1 x2 x3 x4)).trans
      (congrArg (fun H => layer true (Cert.KernelIdeal.Net.mean1024 (F := Ideal) (Cert.KernelIdeal.Net.src x1) (Cert.KernelIdeal.Net.dst x1) (Cert.KernelIdeal.Net.dinv (F := Ideal) (Cert.KernelIdeal.Net.dst x1)) (Cert.KernelIdeal.Net.h1 x0 x1 x2 x3 x4)) H x5 x6 x7)
        (h1_eq x0 x1 x2 x3 x4)))

/-! ## The two output layers -/

/-- The neighbour mean of any 512-column features, against the first output layer's divisor column … -/
theorem mean512_eq (H) :
    Host.divf (Cert.KernelIdeal.Net.sum512 (F := Ideal) (Cert.KernelIdeal.Net.src x1) (Cert.KernelIdeal.Net.dst x1) H) (val_main_v73 (F := Ideal) x1)
      = Cert.KernelIdeal.Net.mean512 (F := Ideal) (Cert.KernelIdeal.Net.src x1) (Cert.KernelIdeal.Net.dst x1) (Cert.KernelIdeal.Net.dinv (F := Ideal) (Cert.KernelIdeal.Net.dst x1)) H :=
  (mean_mul_eq_div (n := 20000) (K := 512) (Cert.KernelIdeal.Net.sum512 (F := Ideal) (Cert.KernelIdeal.Net.src x1) (Cert.KernelIdeal.Net.dst x1) H) (Cert.KernelIdeal.Net.deg (F := Ideal) (Cert.KernelIdeal.Net.dst x1))
    Cert.KernelIdeal.Gen.bcast_S_S20000 Cert.KernelIdeal.Gen.bcast_S20000_S20000x1_0 Cert.KernelIdeal.Gen.bcast_S20000x1_S20000x512_0_1).symm

/-- … and against the second output layer's, which the reference computes again and is the same column. -/
theorem mean512_eq' (H) :
    Host.divf (Cert.KernelIdeal.Net.sum512 (F := Ideal) (Cert.KernelIdeal.Net.src x1) (Cert.KernelIdeal.Net.dst x1) H) (val_main_v98 (F := Ideal) x1)
      = Cert.KernelIdeal.Net.mean512 (F := Ideal) (Cert.KernelIdeal.Net.src x1) (Cert.KernelIdeal.Net.dst x1) (Cert.KernelIdeal.Net.dinv (F := Ideal) (Cert.KernelIdeal.Net.dst x1)) H :=
  mean512_eq x1 H

theorem v74_eq : val_main_v74 (F := Ideal) x0 x1 x2 x3 x4 x5 x6 x7
    = Cert.KernelIdeal.Net.mean512 (F := Ideal) (Cert.KernelIdeal.Net.src x1) (Cert.KernelIdeal.Net.dst x1) (Cert.KernelIdeal.Net.dinv (F := Ideal) (Cert.KernelIdeal.Net.dst x1)) (Cert.KernelIdeal.Net.h2 x0 x1 x2 x3 x4 x5 x6 x7) :=
  (show val_main_v74 (F := Ideal) x0 x1 x2 x3 x4 x5 x6 x7
      = Host.divf (Cert.KernelIdeal.Net.sum512 (F := Ideal) (Cert.KernelIdeal.Net.src x1) (Cert.KernelIdeal.Net.dst x1) (val_main_v55 (F := Ideal) x0 x1 x2 x3 x4 x5 x6 x7)) (val_main_v73 (F := Ideal) x1) from rfl).trans
    ((congrArg (fun H => Host.divf (Cert.KernelIdeal.Net.sum512 (F := Ideal) (Cert.KernelIdeal.Net.src x1) (Cert.KernelIdeal.Net.dst x1) H) (val_main_v73 (F := Ideal) x1)) (h2_eq x0 x1 x2 x3 x4 x5 x6 x7)).trans
      (mean512_eq x1 _))

theorem v99_eq : val_main_v99 (F := Ideal) x0 x1 x2 x3 x4 x5 x6 x7
    = Cert.KernelIdeal.Net.mean512 (F := Ideal) (Cert.KernelIdeal.Net.src x1) (Cert.KernelIdeal.Net.dst x1) (Cert.KernelIdeal.Net.dinv (F := Ideal) (Cert.KernelIdeal.Net.dst x1)) (Cert.KernelIdeal.Net.h2 x0 x1 x2 x3 x4 x5 x6 x7) :=
  (show val_main_v99 (F := Ideal) x0 x1 x2 x3 x4 x5 x6 x7
      = Host.divf (Cert.KernelIdeal.Net.sum512 (F := Ideal) (Cert.KernelIdeal.Net.src x1) (Cert.KernelIdeal.Net.dst x1) (val_main_v55 (F := Ideal) x0 x1 x2 x3 x4 x5 x6 x7)) (val_main_v98 (F := Ideal) x1) from rfl).trans
    ((congrArg (fun H => Host.divf (Cert.KernelIdeal.Net.sum512 (F := Ideal) (Cert.KernelIdeal.Net.src x1) (Cert.KernelIdeal.Net.dst x1) H) (val_main_v98 (F := Ideal) x1)) (h2_eq x0 x1 x2 x3 x4 x5 x6 x7)).trans
      (mean512_eq' x1 _))

/-- The reference's first result (the mean head) is the kernel program's output layer at that head's weights. -/
theorem out0_eq (x8 : FVec Ideal S512x8 .f32) (x9 : FVec Ideal S8 .f32) (x10 : FVec Ideal S512x8 .f32) :
    val_main_v80 (F := Ideal) x0 x1 x2 x3 x4 x5 x6 x7 x8 x9 x10 = Cert.KernelIdeal.Net.out x0 x1 x2 x3 x4 x5 x6 x7 x8 x9 x10 :=
  (host_layer_eq (M := 20000) (K := 512) (N := 8) (val_main_v74 (F := Ideal) x0 x1 x2 x3 x4 x5 x6 x7)
      (val_main_v55 (F := Ideal) x0 x1 x2 x3 x4 x5 x6 x7) x8 x10 x9 bcast_S8_S1x8_1 bcast_S1x8_S20000x8_0_1).trans
    ((congrArg (fun A => layer false A (val_main_v55 (F := Ideal) x0 x1 x2 x3 x4 x5 x6 x7) x8 x9 x10) (v74_eq x0 x1 x2 x3 x4 x5 x6 x7)).trans
      (congrArg (fun H => layer false (Cert.KernelIdeal.Net.mean512 (F := Ideal) (Cert.KernelIdeal.Net.src x1) (Cert.KernelIdeal.Net.dst x1) (Cert.KernelIdeal.Net.dinv (F := Ideal) (Cert.KernelIdeal.Net.dst x1)) (Cert.KernelIdeal.Net.h2 x0 x1 x2 x3 x4 x5 x6 x7)) H x8 x9 x10)
        (h2_eq x0 x1 x2 x3 x4 x5 x6 x7)))

/-- The reference's second result (the log-standard-deviation head), likewise. -/
theorem out1_eq (x11 : FVec Ideal S512x8 .f32) (x12 : FVec Ideal S8 .f32) (x13 : FVec Ideal S512x8 .f32) :
    val_main_v105 (F := Ideal) x0 x1 x2 x3 x4 x5 x6 x7 x11 x12 x13 = Cert.KernelIdeal.Net.out x0 x1 x2 x3 x4 x5 x6 x7 x11 x12 x13 :=
  (host_layer_eq (M := 20000) (K := 512) (N := 8) (val_main_v99 (F := Ideal) x0 x1 x2 x3 x4 x5 x6 x7)
      (val_main_v55 (F := Ideal) x0 x1 x2 x3 x4 x5 x6 x7) x11 x13 x12 bcast_S8_S1x8_1 bcast_S1x8_S20000x8_0_1).trans
    ((congrArg (fun A => layer false A (val_main_v55 (F := Ideal) x0 x1 x2 x3 x4 x5 x6 x7) x11 x12 x13) (v99_eq x0 x1 x2 x3 x4 x5 x6 x7)).trans
      (congrArg (fun H => layer false (Cert.KernelIdeal.Net.mean512 (F := Ideal) (Cert.KernelIdeal.Net.src x1) (Cert.KernelIdeal.Net.dst x1) (Cert.KernelIdeal.Net.dinv (F := Ideal) (Cert.KernelIdeal.Net.dst x1)) (Cert.KernelIdeal.Net.h2 x0 x1 x2 x3 x4 x5 x6 x7)) H x11 x12 x13)
        (h2_eq x0 x1 x2 x3 x4 x5 x6 x7)))

end Cert.ReferenceIdeal.RefValue

end
-- ==== Proof.lean ====
/-
  The kernel program and the reference compute the same two-head graph network over the extended reals.

  Both programs are three stacked graph convolutions (128 → 1024 → 512, then two heads 512 → 8 from the same hidden
  features): the features of each edge's source are gathered and summed at its destination, the sums are turned into
  neighbour means with the column max(deg, 1), and a layer is mean·W + b + X·W' (clamped at zero for the hidden layers).
  The kernel program runs the dense part of each layer in a kernel region tiled over 1000-row blocks and multiplies the
  sums by 1 / max(deg, 1); the reference divides by max(deg, 1) and adds the bias between the two products.
    * The kernel program's run with both result arrays named is the generated frame's launch called again with a longer
      post (KernelRun), its regions' result arrays are the layer of the arrays each region is entered with (Region0 … 3),
      and folding @main's eight segments gives the results as the composed network of the arguments (KernelValue).
    * The reference's run is its generated run; its stages are the same network (RefValue): max(deg, 1) ≥ 1 is never
      zero, so the quotient is the product with the reciprocal, and the layer differs by the order of two additions.
  The three frames are the generated ones (the reference's frame is its run with the results dropped); the idealization
  rewrote nothing, so `preserves` is trivial.
-/
import proofs.«103868_j47107201302764_1_alg».proof.Defs
import proofs.«103868_j47107201302764_1_alg».proof.Proof.Gen.Kernel
import proofs.«103868_j47107201302764_1_alg».proof.Proof.Gen.Kernel.Skeleton
import proofs.«103868_j47107201302764_1_alg».proof.Proof.Gen.Kernel.Launch
import proofs.«103868_j47107201302764_1_alg».proof.Proof.Gen.Kernel.Points
import proofs.«103868_j47107201302764_1_alg».proof.Proof.Gen.Kernel.Frame
import proofs.«103868_j47107201302764_1_alg».proof.Proof.Gen.KernelIdeal
import proofs.«103868_j47107201302764_1_alg».proof.Proof.Gen.KernelIdeal.Skeleton
import proofs.«103868_j47107201302764_1_alg».proof.Proof.Gen.KernelIdeal.Launch
import proofs.«103868_j47107201302764_1_alg».proof.Proof.Gen.KernelIdeal.Points
import proofs.«103868_j47107201302764_1_alg».proof.Proof.Gen.KernelIdeal.Frame
import proofs.«103868_j47107201302764_1_alg».proof.Proof.Gen.ReferenceIdeal
import proofs.«103868_j47107201302764_1_alg».proof.Proof.Gen.ReferenceIdeal.Run
import proofs.«103868_j47107201302764_1_alg».proof.Proof.Gen.ReferenceIdeal.Read
import proofs.«103868_j47107201302764_1_alg».proof.Proof.Gen.Pre_finite_inputs
import proofs.«103868_j47107201302764_1_alg».proof.Proof.KernelValue
import proofs.«103868_j47107201302764_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs and keeps its arguments: the generated frame. -/
theorem frame_k : Cert.frame_Kernel := fun m ρ _ => Cert.Kernel.Gen.frame m ρ
/-- So does the idealized kernel program. -/
theorem frame_ki : Cert.frame_KernelIdeal := fun m ρ _ => Cert.KernelIdeal.Gen.frame m ρ
/-- The reference has no kernel: its frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories agreeing on the arguments both programs end with the network of the arguments in their two results:
    the kernel program by its folded run, the reference by its run read stage by stage. -/
theorem algebraic : Cert.algebraic_KernelIdeal_ReferenceIdeal := by
  intro m ρ m' ρ' _ hagree
  refine ⟨fun c => Cert.KernelIdeal.Net.MU m c, fun c => Cert.KernelIdeal.Net.LS m c, Cert.KernelIdeal.Net.run m ρ, ?_⟩
  refine (θ_run Cert.ReferenceIdeal.defs _ _).mono (fun r h c => ⟨(h c).1.trans ?_, (h c).2.1.trans ?_, (h c).2.2⟩)
    (Cert.ReferenceIdeal.Value.run (F := Ideal) m' ρ')
  · obtain ⟨e0, e1, e2, e3, e4, e5, e6, e7, e8, e9, e10, e11, e12, e13⟩ := hagree c
    rw [Cert.ReferenceIdeal.Read.val_main_v80_eq, Cert.ReferenceIdeal.RefValue.out0_eq, e0, e1, e2, e3, e4, e5, e6, e7, e8, e9, e10]
  · obtain ⟨e0, e1, e2, e3, e4, e5, e6, e7, e8, e9, e10, e11, e12, e13⟩ := hagree c
    rw [Cert.ReferenceIdeal.Read.val_main_v105_eq, Cert.ReferenceIdeal.RefValue.out1_eq, e0, e1, e2, e3, e4, e5, e6, e7, e11, e12, e13]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
